-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S8000000 : Shape := ⟨1, ![8000000]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel

variable [Facts]

def fn {F : FTy → Type} [FloatOps F] (main_arg0 : FVec F S500000x128 .f32) (main_arg1 : IVec S8000000 32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  main_v3
-- ==== Kernel.lean ====
abbrev S500000x128 : Shape := ⟨2, ![500000, 128]⟩
abbrev S8000000 : Shape := ⟨1, ![8000000]⟩
abbrev S0 : Shape := ⟨1, ![0]⟩
abbrev S1x128 : Shape := ⟨2, ![1, 128]⟩
abbrev S25000x128 : Shape := ⟨2, ![25000, 128]⟩
abbrev S128 : Shape := ⟨1, ![128]⟩
abbrev S_ : Shape := ⟨0, ![]⟩
abbrev S500000 : Shape := ⟨1, ![500000]⟩
abbrev S8000000x1 : Shape := ⟨2, ![8000000, 1]⟩
abbrev S500000x1 : Shape := ⟨2, ![500000, 1]⟩
abbrev S10000x128 : Shape := ⟨2, ![10000, 128]⟩
abbrev S10000x1 : Shape := ⟨2, ![10000, 1]⟩

abbrev nBuf : Space → Nat
  | .hbm => 13
  | .vmem => 11
  | .smem => 0
  | _ => 0

abbrev bufTy : (tb : Table) → Fin (tcTables nBuf tb) → BufTy
  | .hbm, ⟨0, _⟩ => ⟨S500000x128, .f32⟩
  | .hbm, ⟨1, _⟩ => ⟨S8000000, .i32⟩
  | .hbm, ⟨2, _⟩ => ⟨S0, .i32⟩
  | .hbm, ⟨3, _⟩ => ⟨S1x128, .f32⟩
  | .hbm, ⟨4, _⟩ => ⟨S_, .f32⟩
  | .hbm, ⟨5, _⟩ => ⟨S8000000, .f32⟩
  | .hbm, ⟨6, _⟩ => ⟨S_, .f32⟩
  | .hbm, ⟨7, _⟩ => ⟨S500000, .f32⟩
  | .hbm, ⟨8, _⟩ => ⟨S8000000x1, .i32⟩
  | .hbm, ⟨9, _⟩ => ⟨S500000, .f32⟩
  | .hbm, ⟨10, _⟩ => ⟨S500000x1, .f32⟩
  | .hbm, ⟨11, _⟩ => ⟨S500000x128, .f32⟩
  | .hbm, ⟨12, _⟩ => ⟨S500000x128, .f32⟩
  | .local _ .vmem, ⟨0, _⟩ => ⟨S25000x128, .f32⟩
  | .local _ .vmem, ⟨1, _⟩ => ⟨S25000x128, .f32⟩
  | .local _ .vmem, ⟨2, _⟩ => ⟨S1x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S1x128, .f32⟩
  | .local _ .vmem, ⟨7, _⟩ => ⟨S10000x1, .f32⟩
  | .local _ .vmem, ⟨8, _⟩ => ⟨S10000x1, .f32⟩
  | .local _ .vmem, ⟨9, _⟩ => ⟨S10000x128, .f32⟩
  | .local _ .vmem, ⟨10, _⟩ => ⟨S10000x128, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨1, ![20], ![false]⟩

def k0_cond2 (i : grid0.Coords) : BitVec 1 :=
  let arg0 : BitVec 32 := BitVec.ofNat 32 (i 0).val
  let c19_i32 : BitVec 32 := 19#32
  let v11 : BitVec 1 := Scalar.cmpi .eq arg0 c19_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S25000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  hz_S0 : S0.numel = 0
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S25000x128_S25000x128_0_0 : ∀ a, (![0, 0] : Fin 2 → Nat) a + S25000x128.size a ≤ S25000x128.size a
  h_S25000x128 : 0 < S25000x128.numel
  reduces_S25000x128_S128 : S25000x128.Reduces [0] S128
  shapeCasts_S128_S1x128 : S128.ShapeCasts S1x128
  bcast_S_S8000000 : S_.BroadcastsInDim S8000000 (![] : Fin 0 → Fin S8000000.rank)
  bcast_S_S500000 : S_.BroadcastsInDim S500000 (![] : Fin 0 → Fin S500000.rank)
  bcast_S8000000_S8000000x1_0 : S8000000.BroadcastsInDim S8000000x1 (![0] : Fin 1 → Fin S8000000x1.rank)
  shapeCasts_S500000_S500000x1 : S500000.ShapeCasts S500000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S10000x128_S10000x128_0_0 : ∀ a, (![0, 0] : Fin 2 → Nat) a + S10000x128.size a ≤ S10000x128.size a
  h_S10000x128 : 0 < S10000x128.numel
  broadcasts_S1x128_S10000x128 : S1x128.Broadcasts S10000x128
  broadcasts_S10000x1_S10000x128 : S10000x1.Broadcasts S10000x128
  scatter_S500000_S8000000x1_S8000000_n_0_0_1_wf : ScatterDims.WF S500000 S8000000x1 S8000000 [] [0] [0] 1
  scatter_S500000x128_S0_S500000x128_01_n_n_0_wf : ScatterDims.WF S500000x128 S0 S500000x128 [0, 1] [] [] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S25000x128.size a ≤ S500000x128.size a
  hwx0_0 : ∀ i : grid0.Coords, EltTy.bits .f32 = 32 ∨ (Rect.block (s := S500000x128) S25000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S500000x128.size a
  hwx1_0 : ∀ i : grid1.Coords, EltTy.bits .f32 = 32 ∨ (Rect.block (s := S500000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S500000x1.size a
  hwx1_2 : ∀ i : grid1.Coords, EltTy.bits .f32 = 32 ∨ (Rect.block (s := S500000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S500000x128.size a
  hwx1_3 : ∀ i : grid1.Coords, EltTy.bits .f32 = 32 ∨ (Rect.block (s := S500000x128) S10000x128.size (cc1_transform_3 i) (hinb1_3 i)).WholeWords (EltTy.packing .f32)

variable [Facts₀]

def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def scatter_S500000x128_S0_S500000x128_01_n_n_0 : ScatterDims S500000x128 S0 S500000x128 where
  updateWindowDims := [0, 1]
  insertedWindowDims := []
  scatterDimsToOperandDims := []
  indexVectorDim := 0
  wf := scatter_S500000x128_S0_S500000x128_01_n_n_0_wf

abbrev win0_0 : Pipeline.Window sig grid0 :=
  Pipeline.Window.ofSpec (Memref.whole main_arg0) S25000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg0) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000x128 : Shape := ⟨2, ![500000, 128]⟩
abbrev S8000000 : Shape := ⟨1, ![8000000]⟩
abbrev S0 : Shape := ⟨1, ![0]⟩
abbrev S_ : Shape := ⟨0, ![]⟩
abbrev S128 : Shape := ⟨1, ![128]⟩
abbrev S1x128 : Shape := ⟨2, ![1, 128]⟩
abbrev S500000 : Shape := ⟨1, ![500000]⟩
abbrev S8000000x1 : Shape := ⟨2, ![8000000, 1]⟩
abbrev S500000x1 : Shape := ⟨2, ![500000, 1]⟩

abbrev nBuf : Space → Nat
  | .hbm => 27
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S8000000, .i32⟩
  | .hbm, ⟨2, _⟩ => ⟨S0, .i32⟩
  | .hbm, ⟨3, _⟩ => ⟨S_, .f32⟩
  | .hbm, ⟨4, _⟩ => ⟨S128, .f32⟩
  | .hbm, ⟨5, _⟩ => ⟨S1x128, .f32⟩
  | .hbm, ⟨6, _⟩ => ⟨S500000x128, .f32⟩
  | .hbm, ⟨7, _⟩ => ⟨S500000x128, .f32⟩
  | .hbm, ⟨8, _⟩ => ⟨S_, .f32⟩
  | .hbm, ⟨9, _⟩ => ⟨S8000000, .f32⟩
  | .hbm, ⟨10, _⟩ => ⟨S_, .f32⟩
  | .hbm, ⟨11, _⟩ => ⟨S500000, .f32⟩
  | .hbm, ⟨12, _⟩ => ⟨S8000000x1, .i32⟩
  | .hbm, ⟨13, _⟩ => ⟨S500000, .f32⟩
  | .hbm, ⟨14, _⟩ => ⟨S_, .f32⟩
  | .hbm, ⟨15, _⟩ => ⟨S500000, .f32⟩
  | .hbm, ⟨16, _⟩ => ⟨S500000, .f32⟩
  | .hbm, ⟨17, _⟩ => ⟨S500000x1, .f32⟩
  | .hbm, ⟨18, _⟩ => ⟨S1x128, .f32⟩
  | .hbm, ⟨19, _⟩ => ⟨S500000x128, .f32⟩
  | .hbm, ⟨20, _⟩ => ⟨S500000x128, .f32⟩
  | .hbm, ⟨21, _⟩ => ⟨S500000x128, .f32⟩
  | .hbm, ⟨22, _⟩ => ⟨S_, .f32⟩
  | .hbm, ⟨23, _⟩ => ⟨S500000x128, .f32⟩
  | .hbm, ⟨24, _⟩ => ⟨S500000x128, .f32⟩
  | .hbm, ⟨25, _⟩ => ⟨S500000x128, .f32⟩
  | .hbm, ⟨26, _⟩ => ⟨S500000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  hz_S0 : S0.numel = 0
  reducesTo_S500000x128_S128_d0 : S500000x128.ReducesTo [0] S128
  h_S_ : 0 < S_.numel
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S8000000 : S_.BroadcastsInDim S8000000 (![] : Fin 0 → Fin S8000000.rank)
  bcast_S_S500000 : S_.BroadcastsInDim S500000 (![] : Fin 0 → Fin S500000.rank)
  bcast_S8000000_S8000000x1_0 : S8000000.BroadcastsInDim S8000000x1 (![0] : Fin 1 → Fin S8000000x1.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  scatter_S500000_S8000000x1_S8000000_n_0_0_1_wf : ScatterDims.WF S500000 S8000000x1 S8000000 [] [0] [0] 1
  scatter_S500000x128_S0_S500000x128_01_n_n_0_wf : ScatterDims.WF S500000x128 S0 S500000x128 [0, 1] [] [] 0

variable [Facts₀]

def scatter_S500000_S8000000x1_S8000000_n_0_0_1 : ScatterDims S500000 S8000000x1 S8000000 where
  updateWindowDims := []
  insertedWindowDims := [0]
  scatterDimsToOperandDims := [0]
  indexVectorDim := 1
  wf := scatter_S500000_S8000000x1_S8000000_n_0_0_1_wf
def scatter_S500000x128_S0_S500000x128_01_n_n_0 : ScatterDims S500000x128 S0 S500000x128 where
  updateWindowDims := [0, 1]
  insertedWindowDims := []
  scatterDimsToOperandDims := []
  indexVectorDim := 0
  wf := scatter_S500000x128_S0_S500000x128_01_n_n_0_wf

class Facts : Prop extends Facts₀ where

variable [Facts]
-- ==== Proof.BitsSumRegion.lean ====
/-
  The first kernel region: the column sums of the embedding table, accumulated over twenty blocks of 25000 rows.
  At grid point t the body adds the column sums of rows 25000·t … 25000·t + 24999 to a [1,128] scratch accumulator
  (zeroed at point 0) and, at the last point, copies the accumulator to the region's one output block.
-/
import proofs.«160569_j84937273245885_1_alg».proof.Proof.Gen.Kernel.Launch
import proofs.«160569_j84937273245885_1_alg».proof.Proof.Gen.Kernel.Skeleton
import proofs.«160569_j84937273245885_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 25000 rows the body sums at point `t`. -/
abbrev rowsAt (c : Dev nD) (t : Fin cfg0.N) : Vec F S25000x128 .f32 := iblk0 V c 0 t

/-- The accumulator after point `n`: zero plus the column sums of blocks 0 … n, added block by block in the body's order. -/
def colAcc (c : Dev nD) : (n : ℕ) → n < cfg0.N → Vec F S1x128 .f32
  | 0, h => k0_pay2 (k0_pay1 (F := F)) (rowsAt V c ⟨0, h⟩)
  | n + 1, h => k0_pay2 (colAcc c n (Nat.lt_of_succ_lt h)) (rowsAt V c ⟨n + 1, h⟩)

theorem colAcc_zero (c : Dev nD) (h : 0 < cfg0.N) : colAcc V c 0 h = k0_pay2 (k0_pay1 (F := F)) (rowsAt V c ⟨0, h⟩) := rfl
theorem colAcc_succ (c : Dev nD) (n : ℕ) (h : n + 1 < cfg0.N) :
    colAcc V c (n + 1) h = k0_pay2 (colAcc V c n (Nat.lt_of_succ_lt h)) (rowsAt V c ⟨n + 1, h⟩) := rfl

/-- The scratch accumulator as a memref. -/
abbrev accRef : Memref sig .tc .vmem S1x128 .f32 := Memref.whole cc0_scratch0

/-- The scoped buffers that belong to the other region (its staging buffers), each whole at some contents: this region's
    body never touches them. -/
def othersRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant before position `n`: before the first point every scoped buffer that is no staging buffer of
    this region at some contents; afterwards the accumulator at `colAcc (n-1)`, the other such buffers at some contents. -/
def PhiAcc (c : Dev nD) : (n : ℕ) → n ≤ cfg0.N → sProp 𝕄
  | 0, _ => Pipeline.ΦA spec0 c
  | n + 1, hn => iprop(owns (c : Thread nD τ) accRef fullShare (colAcc V c n hn) ∗ othersRest (F := F) c ∗ (∃ r, prngReg c r))

/-- The proof data of the region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => colAcc V c t.val t.isLt
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## The body's two conditions on the grid coordinate -/

/-- The first condition of the body: the grid coordinate is 0 (the accumulator is zeroed). -/
abbrev atFirst (i : grid0.Coords) : Prop :=
  (Scalar.cmpi .ne (Scalar.extui (Scalar.cmpi .eq (BitVec.ofNat 32 (i 0).val) 0#32)) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The second condition of the body: the grid coordinate is 19 (the accumulator is copied out). -/
abbrev atLast (i : grid0.Coords) : Prop := k0_cond2 i = 1#1
/-- It holds at point 19 only. -/
theorem atLast_iff : ∀ t : Fin cfg0.N, atLast (grid0.coords t) ↔ t.val = 19 :=
  (by decide +kernel : ∀ t : Fin grid0.N, atLast (grid0.coords t) ↔ t.val = 19)

/-! ## Where the windows are idle -/

/-- The input window is never idle. -/
theorem live_in : ∀ t : Fin cfg0.N, cfg0.idle 0 (grid0.coords t) = false := by decide +kernel
/-- Off the last point the output window is idle: nothing is stored into it, -/
theorem idle_out : ∀ t : Fin cfg0.N, ¬atLast (grid0.coords t) → cfg0.idle 1 (grid0.coords t) = true := by decide +kernel
/-- and its block is not written back there. -/
theorem noFlush_out : ∀ t : Fin cfg0.N, ¬atLast (grid0.coords t) → (cfg0.win 1).flush t = false := by decide +kernel
/-- At the last point it is live. -/
theorem live_out : ∀ t : Fin cfg0.N, atLast (grid0.coords t) → cfg0.idle 1 (grid0.coords t) = false := by decide +kernel

/-! ## The invariant before the first point, buffer by buffer -/

/-- Before the first point the region holds the accumulator at some contents, the other region's staging buffers at some
    contents, and the generator register at some state. -/
theorem PhiA_eq (c : Dev nD) :
    (Pipeline.ΦA spec0 c : sProp 𝕄)
      = iprop((∃ d, owns (c : Thread nD τ) accRef fullShare d) ∗ othersRest (F := F) c ∗ (∃ r, prngReg c r)) := by
  unfold Pipeline.ΦA othersRest; rw [scopedRest0_eq]; simp only [accRef, owns_whole]
  exact Idealize.SL.BI.Entails.antisymm Idealize.SL.BI.sep_assoc Idealize.SL.BI.sep_assoc'

/-! ## The body on any whole memrefs, case by case -/

/-- The offsets of every load and store of the body: zero on both axes. -/
theorem zeroOff : (![0, 0] : Fin 2 → Nat) = fun _ => 0 := by funext a; fin_cases a <;> rfl

set_option maxHeartbeats 1000000 in
/-- At the first point: the accumulator, found at anything, is zeroed, and the block's column sums are added to it; the
    output's buffer is handed back untouched. -/
theorem run_first (c : Dev nD) (i : grid0.Coords) (arg1 : Memref sig .tc .vmem S25000x128 .f32) (harg1 : arg1.IsWhole)
    (arg2 : Memref sig .tc .vmem S1x128 .f32) (harg2 : arg2.IsWhole) (arg3 : Memref sig .tc .vmem S1x128 .f32) (harg3 : arg3.IsWhole)
    (hc0 : atFirst i) (hc1 : ¬atLast i) (x : Vec F S25000x128 .f32) (o : Vec F S1x128 .f32) (E : Set ℕ) (K : PUnit → sProp 𝕄) :
    iprop(owns (c : Thread nD τ) arg1 fullShare x ∗ owns (c : Thread nD τ) arg2 fullShare o ∗ (∃ d, owns (c : Thread nD τ) arg3 fullShare d)
        ∗ (iprop(owns (c : Thread nD τ) arg1 fullShare x ∗ owns (c : Thread nD τ) arg2 fullShare o
            ∗ owns (c : Thread nD τ) arg3 fullShare (k0_pay2 (k0_pay1 (F := F)) x)) -∗ K ⟨⟩))
      ⊢ wp frame (wpE (defs₀ (F := F)) Variants.none c none) E (cc0__sum_kernel i arg1 harg1 arg2 harg2 arg3 harg3) K := by
  simp only [cc0__sum_kernel_eq_skeleton]; unfold cc0__sum_kernel_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [View.read_writes_eq_canon _ _ _ (fun y => ⟨_, List.mem_cons_self, View.mem_set_unit_zero zeroOff inb_S1x128_S1x128_0_0 y⟩),
    View.canon_cons_unit_zero (S := S1x128) zeroOff]
  simp only [View.readAt_eq_ld, harg1.read_unread, View.ld_unit_zero (S := S25000x128) zeroOff,
    View.readCov_unit_zero (S := S1x128) _ zeroOff]

set_option maxHeartbeats 1000000 in
/-- At a point that is neither the first nor the last: the block's column sums are added to the accumulator as the point
    before left it; the output's buffer is handed back untouched. -/
theorem run_mid (c : Dev nD) (i : grid0.Coords) (arg1 : Memref sig .tc .vmem S25000x128 .f32) (harg1 : arg1.IsWhole)
    (arg2 : Memref sig .tc .vmem S1x128 .f32) (harg2 : arg2.IsWhole) (arg3 : Memref sig .tc .vmem S1x128 .f32) (harg3 : arg3.IsWhole)
    (hc0 : ¬atFirst i) (hc1 : ¬atLast i) (x : Vec F S25000x128 .f32) (o : Vec F S1x128 .f32) (a : Vec F S1x128 .f32)
    (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare o
            ∗ owns (c : Thread nD τ) arg3 fullShare (k0_pay2 a x)) -∗ K ⟨⟩))
      ⊢ wp frame (wpE (defs₀ (F := F)) Variants.none c none) E (cc0__sum_kernel i arg1 harg1 arg2 harg2 arg3 harg3) K := by
  simp only [cc0__sum_kernel_eq_skeleton]; unfold cc0__sum_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [View.read_writes_eq_canon _ _ _ (fun y => ⟨_, List.mem_cons_self, View.mem_set_unit_zero zeroOff inb_S1x128_S1x128_0_0 y⟩),
    View.canon_cons_unit_zero (S := S1x128) zeroOff]
  simp only [View.readAt_eq_ld, harg1.read_unread, harg3.read_unread, View.ld_unit_zero (S := S25000x128) zeroOff,
    View.ld_unit_zero (S := S1x128) zeroOff]

set_option maxHeartbeats 1000000 in
/-- At the last point: the block's column sums are added to the accumulator, and the accumulator is then copied whole
    into the output's buffer, found at anything. -/
theorem run_last (c : Dev nD) (i : grid0.Coords) (arg1 : Memref sig .tc .vmem S25000x128 .f32) (harg1 : arg1.IsWhole)
    (arg2 : Memref sig .tc .vmem S1x128 .f32) (harg2 : arg2.IsWhole) (arg3 : Memref sig .tc .vmem S1x128 .f32) (harg3 : arg3.IsWhole)
    (hc0 : ¬atFirst i) (hc1 : atLast i) (x : Vec F S25000x128 .f32) (a : Vec F S1x128 .f32)
    (E : Set ℕ) (K : PUnit → sProp 𝕄) :
    iprop(owns (c : Thread nD τ) arg1 fullShare x ∗ (∃ d, owns (c : Thread nD τ) arg2 fullShare d) ∗ owns (c : Thread nD τ) arg3 fullShare a
        ∗ (iprop(owns (c : Thread nD τ) arg1 fullShare x ∗ owns (c : Thread nD τ) arg2 fullShare (k0_pay2 a x)
            ∗ owns (c : Thread nD τ) arg3 fullShare (k0_pay2 a x)) -∗ K ⟨⟩))
      ⊢ wp frame (wpE (defs₀ (F := F)) Variants.none c none) E (cc0__sum_kernel i arg1 harg1 arg2 harg2 arg3 harg3) K := by
  simp only [cc0__sum_kernel_eq_skeleton]; unfold cc0__sum_kernel_skel
  unfold owns
  iintro ⟨⟨%f1, %hf1, H1⟩, ⟨%d2, %f2, -, H2⟩, ⟨%f3, %hf3, H3⟩, Hk⟩
  obtain rfl := harg1.eq_unread hf1; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    sl_unfold_words
    rw [View.read_writes_eq_canon _ _ _ (fun y => ⟨_, List.mem_cons_self, View.mem_set_unit_zero zeroOff inb_S1x128_S1x128_0_0 y⟩),
      View.canon_cons_unit_zero (S := S1x128) zeroOff]
    simp only [View.readCov_unit_zero (S := S1x128) _ zeroOff, View.readAt_eq_ld, harg1.read_unread, harg3.read_unread,
      View.ld_unit_zero (S := S25000x128) zeroOff, View.ld_unit_zero (S := S1x128) zeroOff]
  iexists _; isplitr
  swap; · iexact H3
  ipureintro
  sl_unfold_words
  rw [View.read_writes_eq_canon _ _ _ (fun y => ⟨_, List.mem_cons_self, View.mem_set_unit_zero zeroOff inb_S1x128_S1x128_0_0 y⟩),
    View.canon_cons_unit_zero (S := S1x128) zeroOff]
  simp only [View.readAt_eq_ld, harg1.read_unread, harg3.read_unread, View.ld_unit_zero (S := S25000x128) zeroOff,
    View.ld_unit_zero (S := S1x128) zeroOff]

/-! ## The proof data, field by field -/

theorem after0_in (c : Dev nD) (t : Fin cfg0.N) : (dat0 V c).after 0 t = iblk0 V c 0 t := by dsimp only [dat0]
theorem after0_out (c : Dev nD) (t : Fin cfg0.N) : (dat0 V c).after 1 t = colAcc V c t.val t.isLt := by dsimp only [dat0]

/-- The input's staging buffer holds the point's block of rows whenever the body runs: the window is uncut, never idle,
    and the body leaves the block in place. -/
theorem before0_in (c : Dev nD) (t : Fin cfg0.N) (d) : (dat0 V c).before 0 t d = iblk0 V c 0 t :=
  ((dat0 V c).before_in_eq_fetched 0 rfl (fun _ => rfl) (fun _ _ _ => rfl)
      (fun t => by rw [after0_in]; unfold Dat.blockOf iblk0; rw [A_eq0]; try rfl) t d).trans
    (by unfold Dat.fetched Dat.blockOf iblk0; rw [A_eq0]; try rfl)

theorem PhiAcc_zero (c : Dev nD) (n : ℕ) (h : n ≤ cfg0.N) (hz : n = 0) : PhiAcc V c n h = Pipeline.ΦA spec0 c := by
  subst hz; rfl

theorem PhiAcc_succ (c : Dev nD) (n : ℕ) (hn : n < cfg0.N) :
    PhiAcc V c (n + 1) hn
      = iprop(owns (c : Thread nD τ) accRef fullShare (colAcc V c n hn) ∗ othersRest (F := F) c ∗ (∃ r, prngReg c r)) := rfl

theorem PhiAcc_pos (c : Dev nD) (n : ℕ) (h : n ≤ cfg0.N) (hz : n ≠ 0) :
    PhiAcc V c n h
      = iprop(owns (c : Thread nD τ) accRef fullShare (colAcc V c (n - 1) (by omega)) ∗ othersRest (F := F) c ∗ (∃ r, prngReg c r)) := by
  cases n with
  | zero => exact absurd rfl hz
  | succ n => rfl

theorem Phi_castSucc (c : Dev nD) (t : Fin cfg0.N) :
    (dat0 V c).Φ t.castSucc = PhiAcc V c t.val (Nat.le_of_lt t.isLt) := by
  dsimp only [dat0]; simp only [Fin.coe_castSucc]

/-- The accumulator after the first point. -/
theorem colAcc_first (c : Dev nD) (t : Fin cfg0.N) (h : t.val = 0) :
    colAcc V c t.val t.isLt = k0_pay2 (k0_pay1 (F := F)) (rowsAt V c t) := by
  obtain ⟨n, hn⟩ := t
  cases n with
  | zero => rfl
  | succ n => exact absurd h (Nat.succ_ne_zero n)

/-- The accumulator after a later point: the point's column sums added to what the point before left. -/
theorem colAcc_pos (c : Dev nD) (t : Fin cfg0.N) (h : t.val ≠ 0) :
    colAcc V c t.val t.isLt
      = k0_pay2 (colAcc V c (t.val - 1) (Nat.lt_of_le_of_lt (Nat.sub_le _ _) t.isLt)) (rowsAt V c t) := by
  obtain ⟨n, hn⟩ := t
  cases n with
  | zero => exact absurd rfl h
  | succ n => rfl

/-! ## The body obligation -/

/-- The windows' current staging memrefs at point t, as the pipeline passes them to the body. -/
abbrev inBuf (t : Fin cfg0.N) : Memref sig .tc .vmem S25000x128 .f32 := win0_0.stage (cfg0.slots t 0)
abbrev outBuf (t : Fin cfg0.N) : Memref sig .tc .vmem S1x128 .f32 := win0_1.stage (cfg0.slots t 1)

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (inBuf t) fullShare ((dat0 V c).before 0 t d))
    ∗ (∃ d, owns (c : Thread nD τ) (outBuf t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds the point's rows; the point is the first, the last, or neither, and
    that case's run applies: the invariant hands it the accumulator (at anything at the first point, else at what the
    point before left) and takes it back with this point's column sums added; the other region's buffers and the
    generator register pass through; the output's buffer comes back untouched except at the last point, where it
    holds the accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_in]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (inBuf t) fullShare ((dat0 V c).after 0 t) from by
    unfold Dat.leavesExact; rw [live_in t], after0_in]
  have hN : t.val < 20 := lt_of_lt_of_eq t.isLt (show cfg0.N = 20 from N_0)
  by_cases h0 : t.val = 0
  · have hl : ¬atLast (grid0.coords t) := fun h => by have := (atLast_iff t).mp h; omega
    rw [Dat.leavesExact_idle (dat0 V c) 1 t (idle_out t hl) (noFlush_out t hl)]
    rw [colAcc_first V c t h0]
    rw [Phi_castSucc V c t, PhiAcc_zero V c _ _ h0, PhiA_eq]
    iintro ⟨⟨HS, Hr, Hg⟩, Ho, ⟨%d0, H0⟩, ⟨%d1, H1⟩⟩
    iapply (run_first c (grid0.coords t) _ _ _ _ _ _ ((atFirst_iff t).mpr h0) hl (rowsAt V c t) _ Set.univ _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexists _; iexact H1
  · have hf : ¬atFirst (grid0.coords t) := fun h => h0 ((atFirst_iff t).mp h)
    rw [colAcc_pos V c t h0]
    rw [Phi_castSucc V c t, PhiAcc_pos V c _ _ h0]
    by_cases h1 : t.val = 19
    · have hl : atLast (grid0.coords t) := (atLast_iff t).mpr h1
      rw [show (dat0 V c).leavesExact 1 t = owns (c : Thread nD τ) (outBuf t) fullShare ((dat0 V c).after 1 t) from by
        unfold Dat.leavesExact; rw [live_out t hl], after0_out, colAcc_pos V c t h0]
      iintro ⟨⟨HS, Hr, Hg⟩, Ho, ⟨%d0, H0⟩, ⟨%d1, H1⟩⟩
      iapply (run_last c (grid0.coords t) _ _ _ _ _ _ hf hl (rowsAt V c t) _ Set.univ _)
      isplitl [H0]; · iexact H0
      isplitl [H1]; · iexists _; iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexact H1
    · have hl : ¬atLast (grid0.coords t) := fun h => h1 ((atLast_iff t).mp h)
      rw [Dat.leavesExact_idle (dat0 V c) 1 t (idle_out t hl) (noFlush_out t hl)]
      iintro ⟨⟨HS, Hr, Hg⟩, Ho, ⟨%d0, H0⟩, ⟨%d1, H1⟩⟩
      iapply (run_mid c (grid0.coords t) _ _ _ _ _ _ hf hl (rowsAt V c t) _ _ Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 20 := N_0; omega), PhiA_eq]
  iintro ⟨HS, Hr, Hg⟩
  isplitl [HS]
  · iexists _; iexact HS
  isplitl [Hr]; · iexact Hr
  iexact Hg

/-- The input array is as the region found it. -/
theorem arrAt0_in (c : Dev nD) : (dat0 V c).arrAt 0 cfg0.N = V c (Pipeline.arrRef spec0 0) :=
  ((dat0 V c).arrAt_in 0 rfl _).trans (A_eq0 V c 0)

/-- The output window's index map is constantly zero: its one block is the whole array. -/
theorem outIdx_zero : ∀ t : Fin cfg0.N, win0_1.index t (0 : Fin 2) = 0 ∧ win0_1.index t (1 : Fin 2) = 0 :=
  (by decide +kernel : ∀ t : Fin grid0.N, _)

/-- What a point that writes the output back writes: it is the last point, and it writes the accumulator after it, which
    read as the (one, whole) block of itself is itself. -/
theorem flushed_out (c : Dev nD) (t : Fin cfg0.N) (hf : (cfg0.win 1).flush t = true) :
    (dat0 V c).flushed 1 t = ((cfg0.win 1).blk t).view.read (Elt F) (colAcc V c 19 (by decide)) := by
  have h19 : t.val = 19 := by
    have h := (flush0_1 t).mp hf
    have hN : t.val < 20 := lt_of_lt_of_eq t.isLt (show cfg0.N = 20 from N_0)
    omega
  obtain ⟨n, hn⟩ := t
  dsimp only at h19; subst h19
  show (cfg0.win 1).cut (grid0.coords ⟨19, hn⟩) ((dat0 V c).after 1 ⟨19, hn⟩) = _
  rw [after0_out]
  obtain ⟨e0, e1⟩ := outIdx_zero ⟨19, hn⟩
  funext j
  show colAcc V c 19 hn j = colAcc V c 19 hn (((cfg0.win 1).blk ⟨19, hn⟩).view.emb j)
  refine congrArg (colAcc V c 19 hn) ?_
  funext a; apply Fin.ext
  match a with
  | ⟨0, _⟩ => show (j 0).val = win0_1.index ⟨19, hn⟩ (0 : Fin 2) * 1 + 1 * (j 0).val; omega
  | ⟨1, _⟩ => show (j 1).val = win0_1.index ⟨19, hn⟩ (1 : Fin 2) * 128 + 1 * (j 1).val; omega

/-- An index of the output array is in a point's block iff each coordinate is in the block's range on its axis. -/
theorem mem_outBlk (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v0).slice (win0_1.rect t)).set ↔ _
  rw [View.set_slice_whole, Rect.mem_set_unit]
  exact Iff.rfl

/-- Every index of the output array is in the block the last point writes back. -/
theorem outBlk_cover (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨⟨19, by decide⟩, (flush0_1 _).mpr rfl, ?_⟩
  obtain ⟨e0, e1⟩ := outIdx_zero ⟨19, by decide⟩
  rw [mem_outBlk]
  intro a
  match a with
  | ⟨0, _⟩ =>
    show win0_1.index ⟨19, _⟩ (0 : Fin 2) * 1 ≤ (i 0).val ∧ (i 0).val < win0_1.index ⟨19, _⟩ (0 : Fin 2) * 1 + 1
    have hi : (i 0).val < 1 := (i 0).isLt
    omega
  | ⟨1, _⟩ =>
    show win0_1.index ⟨19, _⟩ (1 : Fin 2) * 128 ≤ (i 1).val ∧ (i 1).val < win0_1.index ⟨19, _⟩ (1 : Fin 2) * 128 + 128
    have hi : (i 1).val < 128 := (i 1).isLt
    omega

/-- The output array after the region: the accumulator after the last point. -/
theorem arrAt0_out (c : Dev nD) : (dat0 V c).arrAt 1 cfg0.N = colAcc V c 19 (by decide) :=
  (dat0 V c).arrAt_eq_of_cover 1 (colAcc V c 19 (by decide)) (flushed_out V c) (outBlk_cover c)

end Cert.Kernel.Hand

end
-- ==== Proof.BitsScaleRegion.lean ====
/-
  The second kernel region: the degree-normalised update, fifty blocks of 10000 rows.
  Entry (r, j) of its output is (x[r,j] + tot[0,j]) · (1 − tot[0,j] / (1 + deg[r,0])), where x is the embedding table,
  tot the [1,128] row of column sums and deg the [500000,1] column of degrees.
-/
import proofs.«160569_j84937273245885_1_alg».proof.Proof.Gen.Kernel.Launch
import proofs.«160569_j84937273245885_1_alg».proof.Proof.Gen.Kernel.Skeleton
import proofs.«160569_j84937273245885_1_alg».proof.Proof.Gen.Kernel.Points
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole output array as one function of the three input arrays, entry by entry. -/
def scaled (x : Vec F S500000x128 .f32) (tot : Vec F S1x128 .f32) (deg : Vec F S500000x1 .f32) : Vec F S500000x128 .f32 :=
  fun i => FloatOps.mulf (FloatOps.addf (x i) (tot (ValueIdx.ix2 0 (i 1))))
    (FloatOps.subf (FloatOps.ofBits .f32 0x3F800000#32)
      (FloatOps.divf (tot (ValueIdx.ix2 0 (i 1))) (FloatOps.addf (FloatOps.ofBits .f32 0x3F800000#32) (deg (ValueIdx.ix2 (i 0) 0)))))

/-- An input window's staging buffer holds its block at every point, fetched there or not, for any proof data whose
    array is the entry contents and whose body leaves the block in place: the table's block, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the row of column sums (moved in at the first point only: its block index never changes), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the degree column's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes whole buffers: the [10000,128] one (table block, output block), the [1,128] row, the [10000,1] column. -/
abbrev rTab : Rect S10000x128 := Rect.unit (s := S10000x128) ![0, 0] S10000x128.size inb_S10000x128_S10000x128_0_0
abbrev rTot : Rect S1x128 := Rect.unit (s := S1x128) ![0, 0] S1x128.size inb_S1x128_S1x128_0_0
abbrev rDeg : Rect S10000x1 := Rect.unit (s := S10000x1) ![0, 0] S10000x1.size inb_S10000x1_S10000x1_0_0

/-- What the body stores into the output block from the three input blocks. -/
def out1_3 (x0 : Vec F S10000x128 .f32) (x1 : Vec F S1x128 .f32) (x2 : Vec F S10000x1 .f32) : Vec F S10000x128 .f32 :=
  View.canon [⟨rTab, k1_pay1 (View.ld x1 rTot) (View.ld x2 rDeg) (View.ld x0 rTab)⟩]

/-- The one store is the whole buffer, so it covers it. -/
theorem cover1_3 (p0 : Vec F S10000x128 .f32) (y : S10000x128.Idx) :
    ∃ pc ∈ ([⟨rTab, p0⟩] : List (View.Piece (Elt F) S10000x128 .f32)), y ∈ pc.1.set :=
  View.cover_of_tiled [⟨rTab, p0⟩] S10000x128.size (by rfl) y

set_option maxHeartbeats 1000000 in
/-- The body on whole staging memrefs, the three inputs' at contents `x0`, `x1`, `x2` and the output's at anything, runs to the
    continuation holding the inputs' as they were and the output's at `out1_3` of them: the body is its skeleton (three
    loads, a load of the output that is not used, one store of the payload). -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S10000x1 .f32) (harg3 : arg3.IsWhole) (arg4 : Memref sig .tc .vmem S10000x128 .f32) (harg4 : arg4.IsWhole)
    (x0 : Vec F S10000x128 .f32) (x1 : Vec F S1x128 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__elementwise_kernel i arg1 harg1 arg2 harg2 arg3 harg3 arg4 harg4) K := by
  simp only [cc1__elementwise_kernel_eq_skeleton]; unfold cc1__elementwise_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-- The proof data of the region. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! ## The output array, entry by entry -/

open Idealize.ShloMosaic.ValueIdx in
/-- The payload at row `p`, column `q` of a block, when the table block's entry there is the table's at row `r`, the row of sums is
    the array's, and the degree block's entry at row `p` is the degree column's at row `r`: `scaled` at row `r`, column `q`. The two
    shape casts are identities; the [1,128] row is read at column `q` of its one row, the [10000,1] column at row `p` of its one column. -/
theorem pay_at (X : Vec F S500000x128 .f32) (T : Vec F S1x128 .f32) (D : Vec F S500000x1 .f32)
    (x0 : Vec F S10000x128 .f32) (x1 : Vec F S1x128 .f32) (x2 : Vec F S10000x1 .f32)
    (p : Fin 10000) (q : Fin 128) (r : Fin 500000)
    (h0 : x0 (ix2 p q) = X (ix2 r q)) (h1 : x1 (ix2 0 q) = T (ix2 0 q)) (h2 : x2 (ix2 p 0) = D (ix2 r 0)) :
    k1_pay1 x1 x2 x0 (ix2 p q) = scaled X T D (ix2 r q) := by
  unfold k1_pay1 scaled
  rw [shapeCast_self, shapeCast_self]
  have hrow : broadcastTo S10000x128 x1 broadcasts_S1x128_S10000x128 (ix2 p q) = x1 (ix2 0 q) :=
    broadcastTo_apply x1 _ (ix2 p q) (ix2 0 q) (fun a => by
      match a with
      | ⟨0, _⟩ => rfl
      | ⟨1, _⟩ => rfl)
  have hcol : broadcastTo S10000x128 (addf (broadcast S10000x1 (Scalar.ofBits (F := F) .f32 0x3F800000#32)) x2) broadcasts_S10000x1_S10000x128 (ix2 p q)
      = FloatOps.addf (FloatOps.ofBits .f32 0x3F800000#32) (x2 (ix2 p 0)) :=
    broadcastTo_apply _ _ (ix2 p q) (ix2 p 0) (fun a => by
      match a with
      | ⟨0, _⟩ => rfl
      | ⟨1, _⟩ => rfl)
  show FloatOps.mulf (FloatOps.addf (x0 (ix2 p q)) (broadcastTo S10000x128 x1 broadcasts_S1x128_S10000x128 (ix2 p q)))
      (FloatOps.subf (FloatOps.ofBits .f32 0x3F800000#32)
        (FloatOps.divf (broadcastTo S10000x128 x1 broadcasts_S1x128_S10000x128 (ix2 p q))
          (broadcastTo S10000x128 (addf (broadcast S10000x1 (Scalar.ofBits (F := F) .f32 0x3F800000#32)) x2) broadcasts_S10000x1_S10000x128 (ix2 p q))))
    = FloatOps.mulf (FloatOps.addf (X (ix2 r q)) (T (ix2 0 q)))
      (FloatOps.subf (FloatOps.ofBits .f32 0x3F800000#32)
        (FloatOps.divf (T (ix2 0 q)) (FloatOps.addf (FloatOps.ofBits .f32 0x3F800000#32) (D (ix2 r 0)))))
  rw [hrow, hcol, h0, h1, h2]

/-- The offsets of the body's whole-buffer accesses are zero. -/
theorem off_zero : (![0, 0] : Fin 2 → Nat) = fun _ => 0 := funext fun a => by fin_cases a <;> rfl

/-- The index maps over the grid: at point `t` the table, the degree column and the output are at block row `t`, block column 0;
    the row of sums is at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

open Idealize.ShloMosaic.ValueIdx in
/-- What point `t` writes back is block `t` of `scaled` of the three arrays as the region found them. -/
theorem flushed1_eq (c : Dev nD) (t : Fin cfg1.N) :
    (dat1 V c).flushed 3 t = ((cfg1.win 3).blk t).view.read (Elt F) (scaled (V c main_arg0) (V c main_v0) (V c main_v5)) := by
  show (cfg1.win 3).cut (grid1.coords t) ((dat1 V c).after 3 t) = _
  rw [after1_3]
  unfold out1_3
  rw [View.canon_unit_zero off_zero]
  simp only [View.ld_unit_zero (S := S10000x128) off_zero, View.ld_unit_zero (S := S1x128) off_zero, View.ld_unit_zero (S := S10000x1) off_zero]
  obtain ⟨e00, e01, e10, e11, e20, e21, e30, e31⟩ := idx_facts1 t
  have ht : t.val < 50 := t.isLt
  refine funext fun (j : S10000x128.Idx) => ?_
  have hj0 : (j 0).val < 10000 := (j 0).isLt
  show k1_pay1 (iblk1 V c 1 t) (iblk1 V c 2 t) (iblk1 V c 0 t) j
    = scaled (V c main_arg0) (V c main_v0) (V c main_v5) (((cfg1.win 3).blk t).view.emb j)
  have hemb : ((cfg1.win 3).blk t).view.emb j = ix2 (⟨t.val * 10000 + (j 0).val, by omega⟩ : Fin 500000) (j 1) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 128 + 1 * (j 1).val = (j 1).val; omega
  rw [hemb]
  refine (congrArg _ (eq_ix2 j)).trans (pay_at _ _ _ _ _ _ (j 0) (j 1) ⟨t.val * 10000 + (j 0).val, by omega⟩ ?_ ?_ ?_)
  · show V c main_arg0 (((cfg1.win 0).blk t).view.emb (ix2 (j 0) (j 1))) = V c main_arg0 (ix2 _ (j 1))
    refine congrArg _ (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 128 + 1 * (j 1).val = (j 1).val; omega
  · show V c main_v0 (((cfg1.win 1).blk t).view.emb (ix2 0 (j 1))) = V c main_v0 (ix2 0 (j 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = (j 1).val; omega
  · show V c main_v5 (((cfg1.win 2).blk t).view.emb (ix2 (j 0) 0)) = V c main_v5 (ix2 _ 0)
    refine congrArg _ (funext fun a => Fin.ext ?_)
    match a with
    | ⟨0, _⟩ => show win1_2.index t (0 : Fin 2) * 10000 + 1 * (j 0).val = t.val * 10000 + (j 0).val; omega
    | ⟨1, _⟩ => show win1_2.index t (1 : Fin 2) * 1 + 1 * 0 = 0; omega

/-- An entry of the output array is in point `t`'s block iff each coordinate is in the block's range on its axis. -/
theorem mem_blk1 (t : Fin cfg1.N) (i : S500000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v6).slice (win1_3.rect t)).set ↔ _
  rw [View.set_slice_whole, Rect.mem_set_unit]
  exact Iff.rfl

/-- The blocks cover the output array: row `r` lies in block `r / 10000`, which is written back. -/
theorem cover1_out (i : S500000x128.Idx) :
    ∃ t : Fin cfg1.N, (cfg1.win 3).flush t = true ∧ i ∈ ((cfg1.win 3).blk t).view.set := by
  have hi0 : (i 0).val < 500000 := (i 0).isLt
  have hi1 : (i 1).val < 128 := (i 1).isLt
  refine ⟨⟨(i 0).val / 10000, by show (i 0).val / 10000 < 50; omega⟩, flush1_3 _, ?_⟩
  rw [mem_blk1]
  obtain ⟨-, -, -, -, -, -, e30, e31⟩ := idx_facts1 ⟨(i 0).val / 10000, by show (i 0).val / 10000 < 50; omega⟩
  have e30' : win1_3.index ⟨(i 0).val / 10000, by show (i 0).val / 10000 < 50; omega⟩ (0 : Fin 2) = (i 0).val / 10000 := e30
  intro a
  match a with
  | ⟨0, _⟩ =>
    show win1_3.index ⟨(i 0).val / 10000, _⟩ (0 : Fin 2) * 10000 ≤ (i 0).val ∧ (i 0).val < win1_3.index ⟨(i 0).val / 10000, _⟩ (0 : Fin 2) * 10000 + 10000
    omega
  | ⟨1, _⟩ =>
    show win1_3.index ⟨(i 0).val / 10000, _⟩ (1 : Fin 2) * 128 ≤ (i 1).val ∧ (i 1).val < win1_3.index ⟨(i 0).val / 10000, _⟩ (1 : Fin 2) * 128 + 128
    omega

/-- The output array after the region is `scaled` of the three input arrays as the region found them. -/
theorem arrAt1_out (c : Dev nD) :
    (dat1 V c).arrAt 3 cfg1.N = scaled (V c main_arg0) (V c main_v0) (V c main_v5) :=
  (dat1 V c).arrAt_eq_of_cover 3 (scaled (V c main_arg0) (V c main_v0) (V c main_v5)) (fun t _ => flushed1_eq V c t) cover1_out

end Cert.Kernel.Hand

end
-- ==== Proof.BitsKernelRun.lean ====
/-
  The whole program's run: a constant, the column-sum region, the degree histogram on the host, the update region,
  and the final write of the updated rows into a copy of the table. Between two items every unscoped buffer of the
  core is held at contents named here (`W0` … `W5`); the run ends with every such buffer at `W5`.
-/
import proofs.«160569_j84937273245885_1_alg».proof.Proof.Gen.Kernel.Launch
import proofs.«160569_j84937273245885_1_alg».proof.Proof.Gen.Kernel.Skeleton
import proofs.«160569_j84937273245885_1_alg».proof.Proof.Gen.Kernel.Points
import proofs.«160569_j84937273245885_1_alg».proof.Proof.Gen.Kernel.Regions
import proofs.«160569_j84937273245885_1_alg».proof.Proof.BitsSumRegion
import proofs.«160569_j84937273245885_1_alg».proof.Proof.BitsScaleRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the column-sum region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the column-sum region's exit: its two arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the update region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the update region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the program's end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The column-sum region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state holds each unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.Kernel.Hand

end
-- ==== Proof.BitsKernelValue.lean ====
/-
  What the program's buffers hold at its end, read back through the items: the arguments are as launched; the result is
  the table with every row overwritten by the update region's output, which is `scaled` of the table, the column sums
  the first region leaves, and the degree column the host computes from the adjacency rows.
-/
import proofs.«160569_j84937273245885_1_alg».proof.Proof.BitsKernelRun
import Idealize.ShloMosaic.Lib.StableHlo.Run

set_option maxRecDepth 16384

noncomputable section

namespace Cert.Kernel.Hand

open Cert.Kernel Cert.Kernel.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The degree column: the histogram of the adjacency rows (ones added at the rows' indices onto zeros), laid out as a
    [500000, 1] column. -/
def degCol (x1 : (⟨S8000000, .i32⟩ : BufTy).Contents (Elt F)) : (⟨S500000x1, .f32⟩ : BufTy).Contents (Elt F) :=
  shapeCast S500000x1 (Host.scatterAdd scatter_S500000_S8000000x1_S8000000_n_0_0_1
    (broadcastInDim S500000 ![] bcast_S_S500000 (constant S_ .f32 0x00000000#32))
    (broadcastInDim S8000000x1 ![0] bcast_S8000000_S8000000x1_0 x1)
    (broadcastInDim S8000000 ![] bcast_S_S8000000 (constant S_ .f32 0x3F800000#32))) shapeCasts_S500000_S500000x1

/-! ## Buffers an item does not write keep their contents -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-! ## The table and the adjacency rows, item by item -/

theorem W1_arg0 (c : Dev nD) : W1 m ρ c main_arg0 = m ((c : Thread nD τ).loc main_arg0) := W1_of m ρ c main_arg0 (by decide)
theorem W1_arg1 (c : Dev nD) : W1 m ρ c main_arg1 = m ((c : Thread nD τ).loc main_arg1) := W1_of m ρ c main_arg1 (by decide)
theorem W2_arg0 (c : Dev nD) : W2 m ρ c main_arg0 = m ((c : Thread nD τ).loc main_arg0) :=
  (W2_arr m ρ c 0).trans ((arrAt0_in (V1 m ρ) c).trans (W1_arg0 m ρ c))
theorem W2_arg1 (c : Dev nD) : W2 m ρ c main_arg1 = m ((c : Thread nD τ).loc main_arg1) :=
  (W2_of_ne m ρ c main_arg1 (by decide)).trans (W1_arg1 m ρ c)
theorem W3_arg0 (c : Dev nD) : W3 m ρ c main_arg0 = m ((c : Thread nD τ).loc main_arg0) :=
  (W3_of m ρ c main_arg0 (by decide)).trans (W2_arg0 m ρ c)
theorem W3_arg1 (c : Dev nD) : W3 m ρ c main_arg1 = m ((c : Thread nD τ).loc main_arg1) :=
  (W3_of m ρ c main_arg1 (by decide)).trans (W2_arg1 m ρ c)
theorem W4_arg0 (c : Dev nD) : W4 m ρ c main_arg0 = m ((c : Thread nD τ).loc main_arg0) :=
  (W4_arr m ρ c 0).trans (((dat1 (V3 m ρ) c).arrAt_in 0 rfl _).trans ((A_eq1 (V3 m ρ) c 0).trans (W3_arg0 m ρ c)))
theorem W4_arg1 (c : Dev nD) : W4 m ρ c main_arg1 = m ((c : Thread nD τ).loc main_arg1) :=
  (W4_of_ne m ρ c main_arg1 (by decide)).trans (W3_arg1 m ρ c)
/-- The first argument ends as launched. -/
theorem W5_arg0 (c : Dev nD) : W5 m ρ c main_arg0 = m ((c : Thread nD τ).loc main_arg0) :=
  (W5_of m ρ c main_arg0 (by decide)).trans (W4_arg0 m ρ c)
/-- The second argument ends as launched. -/
theorem W5_arg1 (c : Dev nD) : W5 m ρ c main_arg1 = m ((c : Thread nD τ).loc main_arg1) :=
  (W5_of m ρ c main_arg1 (by decide)).trans (W4_arg1 m ρ c)

/-! ## The intermediate arrays -/

/-- The empty index vector of the final write. -/
theorem W1_c (c : Dev nD) : W1 m ρ c main_c = emptyVec S0 hz_S0 := by
  show StableHlo.after hostOps0 (W0 m ρ c) (Proc.devRef .tc main_c) = _
  after_results
theorem W4_c (c : Dev nD) : W4 m ρ c main_c = emptyVec S0 hz_S0 :=
  (W4_of_ne m ρ c main_c (by decide)).trans ((W3_of m ρ c main_c (by decide)).trans ((W2_of_ne m ρ c main_c (by decide)).trans (W1_c m ρ c)))

/-- The column sums as the first region leaves them. -/
theorem W3_v0 (c : Dev nD) : W3 m ρ c main_v0 = colAcc (V1 m ρ) c 19 (by decide) :=
  (W3_of m ρ c main_v0 (by decide)).trans ((W2_arr m ρ c 1).trans (arrAt0_out (V1 m ρ) c))

/-- The degree column as the host leaves it. -/
theorem W3_v5 (c : Dev nD) : W3 m ρ c main_v5 = degCol (m ((c : Thread nD τ).loc main_arg1)) := by
  show StableHlo.after hostOps1 (W2 m ρ c) (Proc.devRef .tc main_v5) = _
  after_results
  rw [show W2 m ρ c (Proc.devRef .tc main_arg1) = m ((c : Thread nD τ).loc main_arg1) from W2_arg1 m ρ c]
  rfl

/-- The update region's output. -/
theorem W4_v6 (c : Dev nD) : W4 m ρ c main_v6
    = scaled (m ((c : Thread nD τ).loc main_arg0)) (colAcc (V1 m ρ) c 19 (by decide)) (degCol (m ((c : Thread nD τ).loc main_arg1))) := by
  refine (W4_arr m ρ c 3).trans ((arrAt1_out (V3 m ρ) c).trans ?_)
  rw [show V3 m ρ c main_arg0 = m ((c : Thread nD τ).loc main_arg0) from W3_arg0 m ρ c,
    show V3 m ρ c main_v0 = colAcc (V1 m ρ) c 19 (by decide) from W3_v0 m ρ c,
    show V3 m ρ c main_v5 = degCol (m ((c : Thread nD τ).loc main_arg1)) from W3_v5 m ρ c]

/-- THE RESULT at the program's end. -/
theorem W5_v7 (c : Dev nD) : W5 m ρ c main_v7
    = Host.scatter scatter_S500000x128_S0_S500000x128_01_n_n_0 (fun _ b => b) (m ((c : Thread nD τ).loc main_arg0)) (emptyVec S0 hz_S0 : (⟨S0, .i32⟩ : BufTy).Contents (Elt F))
        (scaled (m ((c : Thread nD τ).loc main_arg0)) (colAcc (V1 m ρ) c 19 (by decide)) (degCol (m ((c : Thread nD τ).loc main_arg1)))) := by
  show StableHlo.after hostOps2 (W4 m ρ c) (Proc.devRef .tc main_v7) = _
  after_results
  rw [show W4 m ρ c (Proc.devRef .tc main_arg0) = m ((c : Thread nD τ).loc main_arg0) from W4_arg0 m ρ c,
    show W4 m ρ c (Proc.devRef .tc main_c) = emptyVec S0 hz_S0 from W4_c m ρ c,
    show W4 m ρ c (Proc.devRef .tc main_v6) = _ from W4_v6 m ρ c]
  rfl

/-! ## The run, read at the arguments and the result -/

/-- Every weakly fair execution terminates, nothing faulting, with the result at `W5_v7`'s term and the arguments as launched. -/
theorem run_value : θ_run defs (onTc (τ := τ) (main (F := F))) ⟨m, fun _ => 0, ρ⟩ (fun r => ∀ c : Dev nD,
      r.2.mem ((c.tc : Thread nD τ).loc main_v7)
        = Host.scatter scatter_S500000x128_S0_S500000x128_01_n_n_0 (fun _ b => b) (m ((c : Thread nD τ).loc main_arg0)) (emptyVec S0 hz_S0 : (⟨S0, .i32⟩ : BufTy).Contents (Elt F))
            (scaled (m ((c : Thread nD τ).loc main_arg0)) (colAcc (V1 m ρ) c 19 (by decide)) (degCol (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (W5_v7 m ρ c),
     (h c _ (mem_uc main_arg0 (by decide))).trans (W5_arg0 m ρ c),
     (h c _ (mem_uc main_arg1 (by decide))).trans (W5_arg1 m ρ c)⟩) (run_all m ρ)

/-- The frame claim: the run, with only the arguments read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.Kernel.Hand

end
-- ==== Proof.SumRegion.lean ====
/-
  The first kernel region: the column sums of the embedding table, accumulated over twenty blocks of 25000 rows.
  At grid point t the body adds the column sums of rows 25000·t … 25000·t + 24999 to a [1,128] scratch accumulator
  (zeroed at point 0) and, at the last point, copies the accumulator to the region's one output block.
-/
import proofs.«160569_j84937273245885_1_alg».proof.Proof.Gen.KernelIdeal.Launch
import proofs.«160569_j84937273245885_1_alg».proof.Proof.Gen.KernelIdeal.Skeleton
import proofs.«160569_j84937273245885_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 25000 rows the body sums at point `t`. -/
abbrev rowsAt (c : Dev nD) (t : Fin cfg0.N) : Vec F S25000x128 .f32 := iblk0 V c 0 t

/-- The accumulator after point `n`: zero plus the column sums of blocks 0 … n, added block by block in the body's order. -/
def colAcc (c : Dev nD) : (n : ℕ) → n < cfg0.N → Vec F S1x128 .f32
  | 0, h => k0_pay2 (k0_pay1 (F := F)) (rowsAt V c ⟨0, h⟩)
  | n + 1, h => k0_pay2 (colAcc c n (Nat.lt_of_succ_lt h)) (rowsAt V c ⟨n + 1, h⟩)

theorem colAcc_zero (c : Dev nD) (h : 0 < cfg0.N) : colAcc V c 0 h = k0_pay2 (k0_pay1 (F := F)) (rowsAt V c ⟨0, h⟩) := rfl
theorem colAcc_succ (c : Dev nD) (n : ℕ) (h : n + 1 < cfg0.N) :
    colAcc V c (n + 1) h = k0_pay2 (colAcc V c n (Nat.lt_of_succ_lt h)) (rowsAt V c ⟨n + 1, h⟩) := rfl

/-- The scratch accumulator as a memref. -/
abbrev accRef : Memref sig .tc .vmem S1x128 .f32 := Memref.whole cc0_scratch0

/-- The scoped buffers that belong to the other region (its staging buffers), each whole at some contents: this region's
    body never touches them. -/
def othersRest (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f))

/-- The region's invariant before position `n`: before the first point every scoped buffer that is no staging buffer of
    this region at some contents; afterwards the accumulator at `colAcc (n-1)`, the other such buffers at some contents. -/
def PhiAcc (c : Dev nD) : (n : ℕ) → n ≤ cfg0.N → sProp 𝕄
  | 0, _ => Pipeline.ΦA spec0 c
  | n + 1, hn => iprop(owns (c : Thread nD τ) accRef fullShare (colAcc V c n hn) ∗ othersRest (F := F) c ∗ (∃ r, prngReg c r))

/-- The proof data of the region. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => colAcc V c t.val t.isLt
  Φ t := PhiAcc V c t.val (Nat.le_of_lt_succ t.isLt)
  q _ := fullShare
  owed _ := 0

theorem A_eq0 (c : Dev nD) (w : Fin cfg0.W) : (dat0 V c).A w = V c (Pipeline.arrRef spec0 w) := by
  dsimp only [dat0]

/-! ## The body's two conditions on the grid coordinate -/

/-- The first condition of the body: the grid coordinate is 0 (the accumulator is zeroed). -/
abbrev atFirst (i : grid0.Coords) : Prop :=
  (Scalar.cmpi .ne (Scalar.extui (Scalar.cmpi .eq (BitVec.ofNat 32 (i 0).val) 0#32)) 0#32) = 1#1
/-- It holds at point 0 only. -/
theorem atFirst_iff : ∀ t : Fin cfg0.N, atFirst (grid0.coords t) ↔ t.val = 0 :=
  (by decide +kernel : ∀ t : Fin grid0.N, atFirst (grid0.coords t) ↔ t.val = 0)

/-- The second condition of the body: the grid coordinate is 19 (the accumulator is copied out). -/
abbrev atLast (i : grid0.Coords) : Prop := k0_cond2 i = 1#1
/-- It holds at point 19 only. -/
theorem atLast_iff : ∀ t : Fin cfg0.N, atLast (grid0.coords t) ↔ t.val = 19 :=
  (by decide +kernel : ∀ t : Fin grid0.N, atLast (grid0.coords t) ↔ t.val = 19)

/-! ## Where the windows are idle -/

/-- The input window is never idle. -/
theorem live_in : ∀ t : Fin cfg0.N, cfg0.idle 0 (grid0.coords t) = false := by decide +kernel
/-- Off the last point the output window is idle: nothing is stored into it, -/
theorem idle_out : ∀ t : Fin cfg0.N, ¬atLast (grid0.coords t) → cfg0.idle 1 (grid0.coords t) = true := by decide +kernel
/-- and its block is not written back there. -/
theorem noFlush_out : ∀ t : Fin cfg0.N, ¬atLast (grid0.coords t) → (cfg0.win 1).flush t = false := by decide +kernel
/-- At the last point it is live. -/
theorem live_out : ∀ t : Fin cfg0.N, atLast (grid0.coords t) → cfg0.idle 1 (grid0.coords t) = false := by decide +kernel

/-! ## The invariant before the first point, buffer by buffer -/

/-- Before the first point the region holds the accumulator at some contents, the other region's staging buffers at some
    contents, and the generator register at some state. -/
theorem PhiA_eq (c : Dev nD) :
    (Pipeline.ΦA spec0 c : sProp 𝕄)
      = iprop((∃ d, owns (c : Thread nD τ) accRef fullShare d) ∗ othersRest (F := F) c ∗ (∃ r, prngReg c r)) := by
  unfold Pipeline.ΦA othersRest; rw [scopedRest0_eq]; simp only [accRef, owns_whole]
  exact Idealize.SL.BI.Entails.antisymm Idealize.SL.BI.sep_assoc Idealize.SL.BI.sep_assoc'

/-! ## The body on any whole memrefs, case by case -/

/-- The offsets of every load and store of the body: zero on both axes. -/
theorem zeroOff : (![0, 0] : Fin 2 → Nat) = fun _ => 0 := by funext a; fin_cases a <;> rfl

set_option maxHeartbeats 1000000 in
/-- At the first point: the accumulator, found at anything, is zeroed, and the block's column sums are added to it; the
    output's buffer is handed back untouched. -/
theorem run_first (c : Dev nD) (i : grid0.Coords) (arg1 : Memref sig .tc .vmem S25000x128 .f32) (harg1 : arg1.IsWhole)
    (arg2 : Memref sig .tc .vmem S1x128 .f32) (harg2 : arg2.IsWhole) (arg3 : Memref sig .tc .vmem S1x128 .f32) (harg3 : arg3.IsWhole)
    (hc0 : atFirst i) (hc1 : ¬atLast i) (x : Vec F S25000x128 .f32) (o : Vec F S1x128 .f32) (E : Set ℕ) (K : PUnit → sProp 𝕄) :
    iprop(owns (c : Thread nD τ) arg1 fullShare x ∗ owns (c : Thread nD τ) arg2 fullShare o ∗ (∃ d, owns (c : Thread nD τ) arg3 fullShare d)
        ∗ (iprop(owns (c : Thread nD τ) arg1 fullShare x ∗ owns (c : Thread nD τ) arg2 fullShare o
            ∗ owns (c : Thread nD τ) arg3 fullShare (k0_pay2 (k0_pay1 (F := F)) x)) -∗ K ⟨⟩))
      ⊢ wp frame (wpE (defs₀ (F := F)) Variants.none c none) E (cc0__sum_kernel i arg1 harg1 arg2 harg2 arg3 harg3) K := by
  simp only [cc0__sum_kernel_eq_skeleton]; unfold cc0__sum_kernel_skel
  unfold owns
  iintro ⟨⟨%f1, %hf1, H1⟩, ⟨%f2, %hf2, H2⟩, ⟨%d3, %f3, -, H3⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [View.read_writes_eq_canon _ _ _ (fun y => ⟨_, List.mem_cons_self, View.mem_set_unit_zero zeroOff inb_S1x128_S1x128_0_0 y⟩),
    View.canon_cons_unit_zero (S := S1x128) zeroOff]
  simp only [View.readAt_eq_ld, harg1.read_unread, View.ld_unit_zero (S := S25000x128) zeroOff,
    View.readCov_unit_zero (S := S1x128) _ zeroOff]

set_option maxHeartbeats 1000000 in
/-- At a point that is neither the first nor the last: the block's column sums are added to the accumulator as the point
    before left it; the output's buffer is handed back untouched. -/
theorem run_mid (c : Dev nD) (i : grid0.Coords) (arg1 : Memref sig .tc .vmem S25000x128 .f32) (harg1 : arg1.IsWhole)
    (arg2 : Memref sig .tc .vmem S1x128 .f32) (harg2 : arg2.IsWhole) (arg3 : Memref sig .tc .vmem S1x128 .f32) (harg3 : arg3.IsWhole)
    (hc0 : ¬atFirst i) (hc1 : ¬atLast i) (x : Vec F S25000x128 .f32) (o : Vec F S1x128 .f32) (a : Vec F S1x128 .f32)
    (E : Set ℕ) (K : PUnit → sProp 𝕄) :
    iprop(owns (c : Thread nD τ) arg1 fullShare x ∗ owns (c : Thread nD τ) arg2 fullShare o ∗ owns (c : Thread nD τ) arg3 fullShare a
        ∗ (iprop(owns (c : Thread nD τ) arg1 fullShare x ∗ owns (c : Thread nD τ) arg2 fullShare o
            ∗ owns (c : Thread nD τ) arg3 fullShare (k0_pay2 a x)) -∗ K ⟨⟩))
      ⊢ wp frame (wpE (defs₀ (F := F)) Variants.none c none) E (cc0__sum_kernel i arg1 harg1 arg2 harg2 arg3 harg3) K := by
  simp only [cc0__sum_kernel_eq_skeleton]; unfold cc0__sum_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [View.read_writes_eq_canon _ _ _ (fun y => ⟨_, List.mem_cons_self, View.mem_set_unit_zero zeroOff inb_S1x128_S1x128_0_0 y⟩),
    View.canon_cons_unit_zero (S := S1x128) zeroOff]
  simp only [View.readAt_eq_ld, harg1.read_unread, harg3.read_unread, View.ld_unit_zero (S := S25000x128) zeroOff,
    View.ld_unit_zero (S := S1x128) zeroOff]

set_option maxHeartbeats 1000000 in
/-- At the last point: the block's column sums are added to the accumulator, and the accumulator is then copied whole
    into the output's buffer, found at anything. -/
theorem run_last (c : Dev nD) (i : grid0.Coords) (arg1 : Memref sig .tc .vmem S25000x128 .f32) (harg1 : arg1.IsWhole)
    (arg2 : Memref sig .tc .vmem S1x128 .f32) (harg2 : arg2.IsWhole) (arg3 : Memref sig .tc .vmem S1x128 .f32) (harg3 : arg3.IsWhole)
    (hc0 : ¬atFirst i) (hc1 : atLast i) (x : Vec F S25000x128 .f32) (a : Vec F S1x128 .f32)
    (E : Set ℕ) (K : PUnit → sProp 𝕄) :
    iprop(owns (c : Thread nD τ) arg1 fullShare x ∗ (∃ d, owns (c : Thread nD τ) arg2 fullShare d) ∗ owns (c : Thread nD τ) arg3 fullShare a
        ∗ (iprop(owns (c : Thread nD τ) arg1 fullShare x ∗ owns (c : Thread nD τ) arg2 fullShare (k0_pay2 a x)
            ∗ owns (c : Thread nD τ) arg3 fullShare (k0_pay2 a x)) -∗ K ⟨⟩))
      ⊢ wp frame (wpE (defs₀ (F := F)) Variants.none c none) E (cc0__sum_kernel i arg1 harg1 arg2 harg2 arg3 harg3) K := by
  simp only [cc0__sum_kernel_eq_skeleton]; unfold cc0__sum_kernel_skel
  unfold owns
  iintro ⟨⟨%f1, %hf1, H1⟩, ⟨%d2, %f2, -, H2⟩, ⟨%f3, %hf3, H3⟩, Hk⟩
  obtain rfl := harg1.eq_unread hf1; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    sl_unfold_words
    rw [View.read_writes_eq_canon _ _ _ (fun y => ⟨_, List.mem_cons_self, View.mem_set_unit_zero zeroOff inb_S1x128_S1x128_0_0 y⟩),
      View.canon_cons_unit_zero (S := S1x128) zeroOff]
    simp only [View.readCov_unit_zero (S := S1x128) _ zeroOff, View.readAt_eq_ld, harg1.read_unread, harg3.read_unread,
      View.ld_unit_zero (S := S25000x128) zeroOff, View.ld_unit_zero (S := S1x128) zeroOff]
  iexists _; isplitr
  swap; · iexact H3
  ipureintro
  sl_unfold_words
  rw [View.read_writes_eq_canon _ _ _ (fun y => ⟨_, List.mem_cons_self, View.mem_set_unit_zero zeroOff inb_S1x128_S1x128_0_0 y⟩),
    View.canon_cons_unit_zero (S := S1x128) zeroOff]
  simp only [View.readAt_eq_ld, harg1.read_unread, harg3.read_unread, View.ld_unit_zero (S := S25000x128) zeroOff,
    View.ld_unit_zero (S := S1x128) zeroOff]

/-! ## The proof data, field by field -/

theorem after0_in (c : Dev nD) (t : Fin cfg0.N) : (dat0 V c).after 0 t = iblk0 V c 0 t := by dsimp only [dat0]
theorem after0_out (c : Dev nD) (t : Fin cfg0.N) : (dat0 V c).after 1 t = colAcc V c t.val t.isLt := by dsimp only [dat0]

/-- The input's staging buffer holds the point's block of rows whenever the body runs: the window is uncut, never idle,
    and the body leaves the block in place. -/
theorem before0_in (c : Dev nD) (t : Fin cfg0.N) (d) : (dat0 V c).before 0 t d = iblk0 V c 0 t :=
  ((dat0 V c).before_in_eq_fetched 0 rfl (fun _ => rfl) (fun _ _ _ => rfl)
      (fun t => by rw [after0_in]; unfold Dat.blockOf iblk0; rw [A_eq0]; try rfl) t d).trans
    (by unfold Dat.fetched Dat.blockOf iblk0; rw [A_eq0]; try rfl)

theorem PhiAcc_zero (c : Dev nD) (n : ℕ) (h : n ≤ cfg0.N) (hz : n = 0) : PhiAcc V c n h = Pipeline.ΦA spec0 c := by
  subst hz; rfl

theorem PhiAcc_succ (c : Dev nD) (n : ℕ) (hn : n < cfg0.N) :
    PhiAcc V c (n + 1) hn
      = iprop(owns (c : Thread nD τ) accRef fullShare (colAcc V c n hn) ∗ othersRest (F := F) c ∗ (∃ r, prngReg c r)) := rfl

theorem PhiAcc_pos (c : Dev nD) (n : ℕ) (h : n ≤ cfg0.N) (hz : n ≠ 0) :
    PhiAcc V c n h
      = iprop(owns (c : Thread nD τ) accRef fullShare (colAcc V c (n - 1) (by omega)) ∗ othersRest (F := F) c ∗ (∃ r, prngReg c r)) := by
  cases n with
  | zero => exact absurd rfl hz
  | succ n => rfl

theorem Phi_castSucc (c : Dev nD) (t : Fin cfg0.N) :
    (dat0 V c).Φ t.castSucc = PhiAcc V c t.val (Nat.le_of_lt t.isLt) := by
  dsimp only [dat0]; simp only [Fin.coe_castSucc]

/-- The accumulator after the first point. -/
theorem colAcc_first (c : Dev nD) (t : Fin cfg0.N) (h : t.val = 0) :
    colAcc V c t.val t.isLt = k0_pay2 (k0_pay1 (F := F)) (rowsAt V c t) := by
  obtain ⟨n, hn⟩ := t
  cases n with
  | zero => rfl
  | succ n => exact absurd h (Nat.succ_ne_zero n)

/-- The accumulator after a later point: the point's column sums added to what the point before left. -/
theorem colAcc_pos (c : Dev nD) (t : Fin cfg0.N) (h : t.val ≠ 0) :
    colAcc V c t.val t.isLt
      = k0_pay2 (colAcc V c (t.val - 1) (Nat.lt_of_le_of_lt (Nat.sub_le _ _) t.isLt)) (rowsAt V c t) := by
  obtain ⟨n, hn⟩ := t
  cases n with
  | zero => exact absurd rfl h
  | succ n => rfl

/-! ## The body obligation -/

/-- The windows' current staging memrefs at point t, as the pipeline passes them to the body. -/
abbrev inBuf (t : Fin cfg0.N) : Memref sig .tc .vmem S25000x128 .f32 := win0_0.stage (cfg0.slots t 0)
abbrev outBuf (t : Fin cfg0.N) : Memref sig .tc .vmem S1x128 .f32 := win0_1.stage (cfg0.slots t 1)

/-- What the body is called with at point t, the windows one by one, -/
def bodyPre (c : Dev nD) (t : Fin cfg0.N) : sProp 𝕄 :=
  iprop((dat0 V c).Φ t.castSucc ∗ (dat0 V c).owesAt () t.castSucc
    ∗ (∃ d, owns (c : Thread nD τ) (inBuf t) fullShare ((dat0 V c).before 0 t d))
    ∗ (∃ d, owns (c : Thread nD τ) (outBuf t) fullShare ((dat0 V c).before 1 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point. The input's buffer holds the point's rows; the point is the first, the last, or neither, and
    that case's run applies: the invariant hands it the accumulator (at anything at the first point, else at what the
    point before left) and takes it back with this point's column sums added; the other region's buffers and the
    generator register pass through; the output's buffer comes back untouched except at the last point, where it
    holds the accumulator. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_in]
  rw [show (dat0 V c).owesAt () t.succ = (dat0 V c).owesAt () t.castSucc from rfl]
  rw [show (dat0 V c).Φ t.succ = PhiAcc V c (t.val + 1) t.isLt from rfl, PhiAcc_succ]
  rw [show (dat0 V c).leavesExact 0 t = owns (c : Thread nD τ) (inBuf t) fullShare ((dat0 V c).after 0 t) from by
    unfold Dat.leavesExact; rw [live_in t], after0_in]
  have hN : t.val < 20 := lt_of_lt_of_eq t.isLt (show cfg0.N = 20 from N_0)
  by_cases h0 : t.val = 0
  · have hl : ¬atLast (grid0.coords t) := fun h => by have := (atLast_iff t).mp h; omega
    rw [Dat.leavesExact_idle (dat0 V c) 1 t (idle_out t hl) (noFlush_out t hl)]
    rw [colAcc_first V c t h0]
    rw [Phi_castSucc V c t, PhiAcc_zero V c _ _ h0, PhiA_eq]
    iintro ⟨⟨HS, Hr, Hg⟩, Ho, ⟨%d0, H0⟩, ⟨%d1, H1⟩⟩
    iapply (run_first c (grid0.coords t) _ _ _ _ _ _ ((atFirst_iff t).mpr h0) hl (rowsAt V c t) _ Set.univ _)
    isplitl [H0]; · iexact H0
    isplitl [H1]; · iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexists _; iexact H1
  · have hf : ¬atFirst (grid0.coords t) := fun h => h0 ((atFirst_iff t).mp h)
    rw [colAcc_pos V c t h0]
    rw [Phi_castSucc V c t, PhiAcc_pos V c _ _ h0]
    by_cases h1 : t.val = 19
    · have hl : atLast (grid0.coords t) := (atLast_iff t).mpr h1
      rw [show (dat0 V c).leavesExact 1 t = owns (c : Thread nD τ) (outBuf t) fullShare ((dat0 V c).after 1 t) from by
        unfold Dat.leavesExact; rw [live_out t hl], after0_out, colAcc_pos V c t h0]
      iintro ⟨⟨HS, Hr, Hg⟩, Ho, ⟨%d0, H0⟩, ⟨%d1, H1⟩⟩
      iapply (run_last c (grid0.coords t) _ _ _ _ _ _ hf hl (rowsAt V c t) _ Set.univ _)
      isplitl [H0]; · iexact H0
      isplitl [H1]; · iexists _; iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexact H1
    · have hl : ¬atLast (grid0.coords t) := fun h => h1 ((atLast_iff t).mp h)
      rw [Dat.leavesExact_idle (dat0 V c) 1 t (idle_out t hl) (noFlush_out t hl)]
      iintro ⟨⟨HS, Hr, Hg⟩, Ho, ⟨%d0, H0⟩, ⟨%d1, H1⟩⟩
      iapply (run_mid c (grid0.coords t) _ _ _ _ _ _ hf hl (rowsAt V c t) _ _ Set.univ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1

theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiAcc V c 0 (Nat.zero_le _) from rfl, PhiAcc_zero V c 0 _ rfl]
  try exact Idealize.SL.BI.Entails.refl _

/-- After the last point the invariant gives the class's back: the accumulator's contents are forgotten. -/
theorem hout0 (c : Dev nD) : (dat0 V c).Φ (Fin.last cfg0.N) ⊢ Pipeline.ΦA spec0 c := by
  rw [show (dat0 V c).Φ (Fin.last cfg0.N) = PhiAcc V c (Fin.last cfg0.N).val (Nat.le_of_lt_succ (Fin.last cfg0.N).isLt) from rfl,
    PhiAcc_pos V c _ _ (by rw [Fin.val_last]; have : cfg0.N = 20 := N_0; omega), PhiA_eq]
  iintro ⟨HS, Hr, Hg⟩
  isplitl [HS]
  · iexists _; iexact HS
  isplitl [Hr]; · iexact Hr
  iexact Hg

/-- The input array is as the region found it. -/
theorem arrAt0_in (c : Dev nD) : (dat0 V c).arrAt 0 cfg0.N = V c (Pipeline.arrRef spec0 0) :=
  ((dat0 V c).arrAt_in 0 rfl _).trans (A_eq0 V c 0)

/-- The output window's index map is constantly zero: its one block is the whole array. -/
theorem outIdx_zero : ∀ t : Fin cfg0.N, win0_1.index t (0 : Fin 2) = 0 ∧ win0_1.index t (1 : Fin 2) = 0 :=
  (by decide +kernel : ∀ t : Fin grid0.N, _)

/-- What a point that writes the output back writes: it is the last point, and it writes the accumulator after it, which
    read as the (one, whole) block of itself is itself. -/
theorem flushed_out (c : Dev nD) (t : Fin cfg0.N) (hf : (cfg0.win 1).flush t = true) :
    (dat0 V c).flushed 1 t = ((cfg0.win 1).blk t).view.read (Elt F) (colAcc V c 19 (by decide)) := by
  have h19 : t.val = 19 := by
    have h := (flush0_1 t).mp hf
    have hN : t.val < 20 := lt_of_lt_of_eq t.isLt (show cfg0.N = 20 from N_0)
    omega
  obtain ⟨n, hn⟩ := t
  dsimp only at h19; subst h19
  show (cfg0.win 1).cut (grid0.coords ⟨19, hn⟩) ((dat0 V c).after 1 ⟨19, hn⟩) = _
  rw [after0_out]
  obtain ⟨e0, e1⟩ := outIdx_zero ⟨19, hn⟩
  funext j
  show colAcc V c 19 hn j = colAcc V c 19 hn (((cfg0.win 1).blk ⟨19, hn⟩).view.emb j)
  refine congrArg (colAcc V c 19 hn) ?_
  funext a; apply Fin.ext
  match a with
  | ⟨0, _⟩ => show (j 0).val = win0_1.index ⟨19, hn⟩ (0 : Fin 2) * 1 + 1 * (j 0).val; omega
  | ⟨1, _⟩ => show (j 1).val = win0_1.index ⟨19, hn⟩ (1 : Fin 2) * 128 + 1 * (j 1).val; omega

/-- An index of the output array is in a point's block iff each coordinate is in the block's range on its axis. -/
theorem mem_outBlk (t : Fin cfg0.N) (i : S1x128.Idx) :
    i ∈ ((cfg0.win 1).blk t).view.set ↔ ∀ a : Fin 2, win0_1.index t a * S1x128.size a ≤ (i a).val ∧ (i a).val < win0_1.index t a * S1x128.size a + S1x128.size a := by
  show i ∈ ((View.whole main_v0).slice (win0_1.rect t)).set ↔ _
  rw [View.set_slice_whole, Rect.mem_set_unit]
  exact Iff.rfl

/-- Every index of the output array is in the block the last point writes back. -/
theorem outBlk_cover (c : Dev nD) (i : ((cfg0.win 1).arr.view.loc (c.tc : Thread nD τ)).2.ty.Idx) :
    ∃ t : Fin cfg0.N, (cfg0.win 1).flush t = true ∧ i ∈ ((cfg0.win 1).blk t).view.set := by
  refine ⟨⟨19, by decide⟩, (flush0_1 _).mpr rfl, ?_⟩
  obtain ⟨e0, e1⟩ := outIdx_zero ⟨19, by decide⟩
  rw [mem_outBlk]
  intro a
  match a with
  | ⟨0, _⟩ =>
    show win0_1.index ⟨19, _⟩ (0 : Fin 2) * 1 ≤ (i 0).val ∧ (i 0).val < win0_1.index ⟨19, _⟩ (0 : Fin 2) * 1 + 1
    have hi : (i 0).val < 1 := (i 0).isLt
    omega
  | ⟨1, _⟩ =>
    show win0_1.index ⟨19, _⟩ (1 : Fin 2) * 128 ≤ (i 1).val ∧ (i 1).val < win0_1.index ⟨19, _⟩ (1 : Fin 2) * 128 + 128
    have hi : (i 1).val < 128 := (i 1).isLt
    omega

/-- The output array after the region: the accumulator after the last point. -/
theorem arrAt0_out (c : Dev nD) : (dat0 V c).arrAt 1 cfg0.N = colAcc V c 19 (by decide) :=
  (dat0 V c).arrAt_eq_of_cover 1 (colAcc V c 19 (by decide)) (flushed_out V c) (outBlk_cover c)

end Cert.KernelIdeal.Hand

end
-- ==== Proof.ScaleRegion.lean ====
/-
  The second kernel region: the degree-normalised update, fifty blocks of 10000 rows.
  Entry (r, j) of its output is (x[r,j] + tot[0,j]) · (1 − tot[0,j] / (1 + deg[r,0])), where x is the embedding table,
  tot the [1,128] row of column sums and deg the [500000,1] column of degrees.
-/
import proofs.«160569_j84937273245885_1_alg».proof.Proof.Gen.KernelIdeal.Launch
import proofs.«160569_j84937273245885_1_alg».proof.Proof.Gen.KernelIdeal.Skeleton
import proofs.«160569_j84937273245885_1_alg».proof.Proof.Gen.KernelIdeal.Points
import Idealize.ShloMosaic.Lib.ValueIdx
import Idealize.ShloMosaic.Lib.ValueLayout
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the contents of the core's buffers when the region is entered
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole output array as one function of the three input arrays, entry by entry. -/
def scaled (x : Vec F S500000x128 .f32) (tot : Vec F S1x128 .f32) (deg : Vec F S500000x1 .f32) : Vec F S500000x128 .f32 :=
  fun i => FloatOps.mulf (FloatOps.addf (x i) (tot (ValueIdx.ix2 0 (i 1))))
    (FloatOps.subf (FloatOps.ofBits .f32 0x3F800000#32)
      (FloatOps.divf (tot (ValueIdx.ix2 0 (i 1))) (FloatOps.addf (FloatOps.ofBits .f32 0x3F800000#32) (deg (ValueIdx.ix2 (i 0) 0)))))

/-- An input window's staging buffer holds its block at every point, fetched there or not, for any proof data whose
    array is the entry contents and whose body leaves the block in place: the table's block, -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- the row of column sums (moved in at the first point only: its block index never changes), -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- and the degree column's block. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The body reads and writes whole buffers: the [10000,128] one (table block, output block), the [1,128] row, the [10000,1] column. -/
abbrev rTab : Rect S10000x128 := Rect.unit (s := S10000x128) ![0, 0] S10000x128.size inb_S10000x128_S10000x128_0_0
abbrev rTot : Rect S1x128 := Rect.unit (s := S1x128) ![0, 0] S1x128.size inb_S1x128_S1x128_0_0
abbrev rDeg : Rect S10000x1 := Rect.unit (s := S10000x1) ![0, 0] S10000x1.size inb_S10000x1_S10000x1_0_0

/-- What the body stores into the output block from the three input blocks. -/
def out1_3 (x0 : Vec F S10000x128 .f32) (x1 : Vec F S1x128 .f32) (x2 : Vec F S10000x1 .f32) : Vec F S10000x128 .f32 :=
  View.canon [⟨rTab, k1_pay1 (View.ld x1 rTot) (View.ld x2 rDeg) (View.ld x0 rTab)⟩]

/-- The one store is the whole buffer, so it covers it. -/
theorem cover1_3 (p0 : Vec F S10000x128 .f32) (y : S10000x128.Idx) :
    ∃ pc ∈ ([⟨rTab, p0⟩] : List (View.Piece (Elt F) S10000x128 .f32)), y ∈ pc.1.set :=
  View.cover_of_tiled [⟨rTab, p0⟩] S10000x128.size (by rfl) y

set_option maxHeartbeats 1000000 in
/-- The body on whole staging memrefs, the three inputs' at contents `x0`, `x1`, `x2` and the output's at anything, runs to the
    continuation holding the inputs' as they were and the output's at `out1_3` of them: the body is its skeleton (three
    loads, a load of the output that is not used, one store of the payload). -/
theorem sound_kernel1 (c : Dev nD) (E : Set ℕ) (i : grid1.Coords)
    (arg1 : Memref sig .tc .vmem S10000x128 .f32) (harg1 : arg1.IsWhole) (arg2 : Memref sig .tc .vmem S1x128 .f32) (harg2 : arg2.IsWhole)
    (arg3 : Memref sig .tc .vmem S10000x1 .f32) (harg3 : arg3.IsWhole) (arg4 : Memref sig .tc .vmem S10000x128 .f32) (harg4 : arg4.IsWhole)
    (x0 : Vec F S10000x128 .f32) (x1 : Vec F S1x128 .f32) (x2 : Vec F S10000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out1_3 x0 x1 x2)) -∗ K ⟨⟩))
      ⊢ wp frame (wpE (defs₀ (F := F)) Variants.none c none) E (cc1__elementwise_kernel i arg1 harg1 arg2 harg2 arg3 harg3 arg4 harg4) K := by
  simp only [cc1__elementwise_kernel_eq_skeleton]; unfold cc1__elementwise_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_3 _)

/-- The proof data of the region. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) :
    (dat1 V c).after 3 t = out1_3 (iblk1 V c 0 t) (iblk1 V c 1 t) (iblk1 V c 2 t) := by dsimp only [dat1]

/-- Each input's staging buffer holds its block when the body is called, at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' memrefs hold their blocks, so `sound_kernel1` applies; the invariant and what the
    core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation1 (c : Dev nD) : BodyObligation (dat1 (F := F) V c) (defs₀ (F := F)) Variants.none () Set.univ := fun t => by
  rw [bigSep_W1, bigSep_W1]
  exact sound_body1 V c t

/-! ## The output array, entry by entry -/

open Idealize.ShloMosaic.ValueIdx in
/-- The payload at row `p`, column `q` of a block, when the table block's entry there is the table's at row `r`, the row of sums is
    the array's, and the degree block's entry at row `p` is the degree column's at row `r`: `scaled` at row `r`, column `q`. The two
    shape casts are identities; the [1,128] row is read at column `q` of its one row, the [10000,1] column at row `p` of its one column. -/
theorem pay_at (X : Vec F S500000x128 .f32) (T : Vec F S1x128 .f32) (D : Vec F S500000x1 .f32)
    (x0 : Vec F S10000x128 .f32) (x1 : Vec F S1x128 .f32) (x2 : Vec F S10000x1 .f32)
    (p : Fin 10000) (q : Fin 128) (r : Fin 500000)
    (h0 : x0 (ix2 p q) = X (ix2 r q)) (h1 : x1 (ix2 0 q) = T (ix2 0 q)) (h2 : x2 (ix2 p 0) = D (ix2 r 0)) :
    k1_pay1 x1 x2 x0 (ix2 p q) = scaled X T D (ix2 r q) := by
  unfold k1_pay1 scaled
  rw [shapeCast_self, shapeCast_self]
  have hrow : broadcastTo S10000x128 x1 broadcasts_S1x128_S10000x128 (ix2 p q) = x1 (ix2 0 q) :=
    broadcastTo_apply x1 _ (ix2 p q) (ix2 0 q) (fun a => by
      match a with
      | ⟨0, _⟩ => rfl
      | ⟨1, _⟩ => rfl)
  have hcol : broadcastTo S10000x128 (addf (broadcast S10000x1 (Scalar.ofBits (F := F) .f32 0x3F800000#32)) x2) broadcasts_S10000x1_S10000x128 (ix2 p q)
      = FloatOps.addf (FloatOps.ofBits .f32 0x3F800000#32) (x2 (ix2 p 0)) :=
    broadcastTo_apply _ _ (ix2 p q) (ix2 p 0) (fun a => by
      match a with
      | ⟨0, _⟩ => rfl
      | ⟨1, _⟩ => rfl)
  show FloatOps.mulf (FloatOps.addf (x0 (ix2 p q)) (broadcastTo S10000x128 x1 broadcasts_S1x128_S10000x128 (ix2 p q)))
      (FloatOps.subf (FloatOps.ofBits .f32 0x3F800000#32)
        (FloatOps.divf (broadcastTo S10000x128 x1 broadcasts_S1x128_S10000x128 (ix2 p q))
          (broadcastTo S10000x128 (addf (broadcast S10000x1 (Scalar.ofBits (F := F) .f32 0x3F800000#32)) x2) broadcasts_S10000x1_S10000x128 (ix2 p q))))
    = FloatOps.mulf (FloatOps.addf (X (ix2 r q)) (T (ix2 0 q)))
      (FloatOps.subf (FloatOps.ofBits .f32 0x3F800000#32)
        (FloatOps.divf (T (ix2 0 q)) (FloatOps.addf (FloatOps.ofBits .f32 0x3F800000#32) (D (ix2 r 0)))))
  rw [hrow, hcol, h0, h1, h2]

/-- The offsets of the body's whole-buffer accesses are zero. -/
theorem off_zero : (![0, 0] : Fin 2 → Nat) = fun _ => 0 := funext fun a => by fin_cases a <;> rfl

/-- The index maps over the grid: at point `t` the table, the degree column and the output are at block row `t`, block column 0;
    the row of sums is at block (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

open Idealize.ShloMosaic.ValueIdx in
/-- What point `t` writes back is block `t` of `scaled` of the three arrays as the region found them. -/
theorem flushed1_eq (c : Dev nD) (t : Fin cfg1.N) :
    (dat1 V c).flushed 3 t = ((cfg1.win 3).blk t).view.read (Elt F) (scaled (V c main_arg0) (V c main_v0) (V c main_v5)) := by
  show (cfg1.win 3).cut (grid1.coords t) ((dat1 V c).after 3 t) = _
  rw [after1_3]
  unfold out1_3
  rw [View.canon_unit_zero off_zero]
  simp only [View.ld_unit_zero (S := S10000x128) off_zero, View.ld_unit_zero (S := S1x128) off_zero, View.ld_unit_zero (S := S10000x1) off_zero]
  obtain ⟨e00, e01, e10, e11, e20, e21, e30, e31⟩ := idx_facts1 t
  have ht : t.val < 50 := t.isLt
  refine funext fun (j : S10000x128.Idx) => ?_
  have hj0 : (j 0).val < 10000 := (j 0).isLt
  show k1_pay1 (iblk1 V c 1 t) (iblk1 V c 2 t) (iblk1 V c 0 t) j
    = scaled (V c main_arg0) (V c main_v0) (V c main_v5) (((cfg1.win 3).blk t).view.emb j)
  have hemb : ((cfg1.win 3).blk t).view.emb j = ix2 (⟨t.val * 10000 + (j 0).val, by omega⟩ : Fin 500000) (j 1) := by
    funext a; apply Fin.ext
    match a with
    | ⟨0, _⟩ => show win1_3.index t (0 : Fin 2) * 10000 + 1 * (j 0).val = t.val * 10000 + (j 0).val; omega
    | ⟨1, _⟩ => show win1_3.index t (1 : Fin 2) * 128 + 1 * (j 1).val = (j 1).val; omega
  rw [hemb]
  refine (congrArg _ (eq_ix2 j)).trans (pay_at _ _ _ _ _ _ (j 0) (j 1) ⟨t.val * 10000 + (j 0).val, by omega⟩ ?_ ?_ ?_)
  · show V c main_arg0 (((cfg1.win 0).blk t).view.emb (ix2 (j 0) (j 1))) = V c main_arg0 (ix2 _ (j 1))
    refine congrArg _ (funext fun a => Fin.ext ?_)
    match a with
    | ⟨0, _⟩ => show win1_0.index t (0 : Fin 2) * 10000 + 1 * (j 0).val = t.val * 10000 + (j 0).val; omega
    | ⟨1, _⟩ => show win1_0.index t (1 : Fin 2) * 128 + 1 * (j 1).val = (j 1).val; omega
  · show V c main_v0 (((cfg1.win 1).blk t).view.emb (ix2 0 (j 1))) = V c main_v0 (ix2 0 (j 1))
    refine congrArg _ (funext fun a => Fin.ext ?_)
    match a with
    | ⟨0, _⟩ => show win1_1.index t (0 : Fin 2) * 1 + 1 * 0 = 0; omega
    | ⟨1, _⟩ => show win1_1.index t (1 : Fin 2) * 128 + 1 * (j 1).val = (j 1).val; omega
  · show V c main_v5 (((cfg1.win 2).blk t).view.emb (ix2 (j 0) 0)) = V c main_v5 (ix2 _ 0)
    refine congrArg _ (funext fun a => Fin.ext ?_)
    match a with
    | ⟨0, _⟩ => show win1_2.index t (0 : Fin 2) * 10000 + 1 * (j 0).val = t.val * 10000 + (j 0).val; omega
    | ⟨1, _⟩ => show win1_2.index t (1 : Fin 2) * 1 + 1 * 0 = 0; omega

/-- An entry of the output array is in point `t`'s block iff each coordinate is in the block's range on its axis. -/
theorem mem_blk1 (t : Fin cfg1.N) (i : S500000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v6).slice (win1_3.rect t)).set ↔ _
  rw [View.set_slice_whole, Rect.mem_set_unit]
  exact Iff.rfl

/-- The blocks cover the output array: row `r` lies in block `r / 10000`, which is written back. -/
theorem cover1_out (i : S500000x128.Idx) :
    ∃ t : Fin cfg1.N, (cfg1.win 3).flush t = true ∧ i ∈ ((cfg1.win 3).blk t).view.set := by
  have hi0 : (i 0).val < 500000 := (i 0).isLt
  have hi1 : (i 1).val < 128 := (i 1).isLt
  refine ⟨⟨(i 0).val / 10000, by show (i 0).val / 10000 < 50; omega⟩, flush1_3 _, ?_⟩
  rw [mem_blk1]
  obtain ⟨-, -, -, -, -, -, e30, e31⟩ := idx_facts1 ⟨(i 0).val / 10000, by show (i 0).val / 10000 < 50; omega⟩
  have e30' : win1_3.index ⟨(i 0).val / 10000, by show (i 0).val / 10000 < 50; omega⟩ (0 : Fin 2) = (i 0).val / 10000 := e30
  intro a
  match a with
  | ⟨0, _⟩ =>
    show win1_3.index ⟨(i 0).val / 10000, _⟩ (0 : Fin 2) * 10000 ≤ (i 0).val ∧ (i 0).val < win1_3.index ⟨(i 0).val / 10000, _⟩ (0 : Fin 2) * 10000 + 10000
    omega
  | ⟨1, _⟩ =>
    show win1_3.index ⟨(i 0).val / 10000, _⟩ (1 : Fin 2) * 128 ≤ (i 1).val ∧ (i 1).val < win1_3.index ⟨(i 0).val / 10000, _⟩ (1 : Fin 2) * 128 + 128
    omega

/-- The output array after the region is `scaled` of the three input arrays as the region found them. -/
theorem arrAt1_out (c : Dev nD) :
    (dat1 V c).arrAt 3 cfg1.N = scaled (V c main_arg0) (V c main_v0) (V c main_v5) :=
  (dat1 V c).arrAt_eq_of_cover 3 (scaled (V c main_arg0) (V c main_v0) (V c main_v5)) (fun t _ => flushed1_eq V c t) cover1_out

end Cert.KernelIdeal.Hand

end
-- ==== Proof.KernelRun.lean ====
/-
  The whole program's run: a constant, the column-sum region, the degree histogram on the host, the update region,
  and the final write of the updated rows into a copy of the table. Between two items every unscoped buffer of the
  core is held at contents named here (`W0` … `W5`); the run ends with every such buffer at `W5`.
-/
import proofs.«160569_j84937273245885_1_alg».proof.Proof.Gen.KernelIdeal.Launch
import proofs.«160569_j84937273245885_1_alg».proof.Proof.Gen.KernelIdeal.Skeleton
import proofs.«160569_j84937273245885_1_alg».proof.Proof.Gen.KernelIdeal.Points
import proofs.«160569_j84937273245885_1_alg».proof.Proof.Gen.KernelIdeal.Regions
import proofs.«160569_j84937273245885_1_alg».proof.Proof.SumRegion
import proofs.«160569_j84937273245885_1_alg».proof.Proof.ScaleRegion
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- After the first host stretch (the column-sum region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the column-sum region's exit: its two arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (the update region's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- At the update region's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last host stretch: the program's end. -/
abbrev W5 : Dev nD → Valuation τ sig (Elt F) := fun c => StableHlo.after hostOps2 (W4 m ρ c)

/-! ## The proof data family and the thread state -/

abbrev adm : (p : Fin 2) → (pcfgs (F := F) p).Adm := fun p => (cfgs p).toPCfg_adm
/-- Every region's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W5 m ρ c) ∗ ∃ r, prngReg c r)

/-! ## The regions as segments -/

set_option backward.isDefEq.respectTransparency.types false in
/-- The column-sum region: entered from every unscoped buffer at `W1`, left at `W2`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The update region: entered from every unscoped buffer at `W3`, left at `W4`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]

theorem main_run (c : Dev nD) : main (F := F) c = Pipeline.Seg.run (segs m ρ) := (main_chain c).trans (by chain_rfl)

set_option backward.isDefEq.respectTransparency.types false in
/-- From any memory with zero counters every weakly fair execution of the program terminates, nothing faulting,
    and every final state holds each unscoped buffer of each core at `W5`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c => h c)

end Cert.KernelIdeal.Hand

end
-- ==== Proof.KernelValue.lean ====
/-
  What the program's buffers hold at its end, read back through the items: the arguments are as launched; the result is
  the table with every row overwritten by the update region's output, which is `scaled` of the table, the column sums
  the first region leaves, and the degree column the host computes from the adjacency rows.
-/
import proofs.«160569_j84937273245885_1_alg».proof.Proof.KernelRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The degree column: the histogram of the adjacency rows (ones added at the rows' indices onto zeros), laid out as a
    [500000, 1] column. -/
def degCol (x1 : (⟨S8000000, .i32⟩ : BufTy).Contents (Elt F)) : (⟨S500000x1, .f32⟩ : BufTy).Contents (Elt F) :=
  shapeCast S500000x1 (Host.scatterAdd scatter_S500000_S8000000x1_S8000000_n_0_0_1
    (broadcastInDim S500000 ![] bcast_S_S500000 (constant S_ .f32 0x00000000#32))
    (broadcastInDim S8000000x1 ![0] bcast_S8000000_S8000000x1_0 x1)
    (broadcastInDim S8000000 ![] bcast_S_S8000000 (constant S_ .f32 0x3F800000#32))) shapeCasts_S500000_S500000x1

/-! ## Buffers an item does not write keep their contents -/

theorem W1_of (c : Dev nD) (r : Ref sig .tc) (h : r ∉ hostOps0_W) : W1 m ρ c r = W0 m ρ c r :=
  StableHlo.after_of_writes_sub hostOps0 _ hostOps0_writes h
theorem W3_of (c : Dev nD) (r : Ref sig .tc) (h : r ∉ hostOps1_W) : W3 m ρ c r = W2 m ρ c r :=
  StableHlo.after_of_writes_sub hostOps1 _ hostOps1_writes h
theorem W5_of (c : Dev nD) (r : Ref sig .tc) (h : r ∉ hostOps2_W) : W5 m ρ c r = W4 m ρ c r :=
  StableHlo.after_of_writes_sub hostOps2 _ hostOps2_writes h

/-! ## The table and the adjacency rows, item by item -/

theorem W1_arg0 (c : Dev nD) : W1 m ρ c main_arg0 = m ((c : Thread nD τ).loc main_arg0) := W1_of m ρ c main_arg0 (by decide)
theorem W1_arg1 (c : Dev nD) : W1 m ρ c main_arg1 = m ((c : Thread nD τ).loc main_arg1) := W1_of m ρ c main_arg1 (by decide)
theorem W2_arg0 (c : Dev nD) : W2 m ρ c main_arg0 = m ((c : Thread nD τ).loc main_arg0) :=
  (W2_arr m ρ c 0).trans ((arrAt0_in (V1 m ρ) c).trans (W1_arg0 m ρ c))
theorem W2_arg1 (c : Dev nD) : W2 m ρ c main_arg1 = m ((c : Thread nD τ).loc main_arg1) :=
  (W2_of_ne m ρ c main_arg1 (by decide)).trans (W1_arg1 m ρ c)
theorem W3_arg0 (c : Dev nD) : W3 m ρ c main_arg0 = m ((c : Thread nD τ).loc main_arg0) :=
  (W3_of m ρ c main_arg0 (by decide)).trans (W2_arg0 m ρ c)
theorem W3_arg1 (c : Dev nD) : W3 m ρ c main_arg1 = m ((c : Thread nD τ).loc main_arg1) :=
  (W3_of m ρ c main_arg1 (by decide)).trans (W2_arg1 m ρ c)
theorem W4_arg0 (c : Dev nD) : W4 m ρ c main_arg0 = m ((c : Thread nD τ).loc main_arg0) :=
  (W4_arr m ρ c 0).trans (((dat1 (V3 m ρ) c).arrAt_in 0 rfl _).trans ((A_eq1 (V3 m ρ) c 0).trans (W3_arg0 m ρ c)))
theorem W4_arg1 (c : Dev nD) : W4 m ρ c main_arg1 = m ((c : Thread nD τ).loc main_arg1) :=
  (W4_of_ne m ρ c main_arg1 (by decide)).trans (W3_arg1 m ρ c)
/-- The first argument ends as launched. -/
theorem W5_arg0 (c : Dev nD) : W5 m ρ c main_arg0 = m ((c : Thread nD τ).loc main_arg0) :=
  (W5_of m ρ c main_arg0 (by decide)).trans (W4_arg0 m ρ c)
/-- The second argument ends as launched. -/
theorem W5_arg1 (c : Dev nD) : W5 m ρ c main_arg1 = m ((c : Thread nD τ).loc main_arg1) :=
  (W5_of m ρ c main_arg1 (by decide)).trans (W4_arg1 m ρ c)

/-! ## The intermediate arrays -/

/-- The empty index vector of the final write. -/
theorem W1_c (c : Dev nD) : W1 m ρ c main_c = emptyVec S0 hz_S0 := by
  show StableHlo.after hostOps0 (W0 m ρ c) (Proc.devRef .tc main_c) = _
  after_results
theorem W4_c (c : Dev nD) : W4 m ρ c main_c = emptyVec S0 hz_S0 :=
  (W4_of_ne m ρ c main_c (by decide)).trans ((W3_of m ρ c main_c (by decide)).trans ((W2_of_ne m ρ c main_c (by decide)).trans (W1_c m ρ c)))

/-- The column sums as the first region leaves them. -/
theorem W3_v0 (c : Dev nD) : W3 m ρ c main_v0 = colAcc (V1 m ρ) c 19 (by decide) :=
  (W3_of m ρ c main_v0 (by decide)).trans ((W2_arr m ρ c 1).trans (arrAt0_out (V1 m ρ) c))

/-- The degree column as the host leaves it. -/
theorem W3_v5 (c : Dev nD) : W3 m ρ c main_v5 = degCol (m ((c : Thread nD τ).loc main_arg1)) := by
  show StableHlo.after hostOps1 (W2 m ρ c) (Proc.devRef .tc main_v5) = _
  after_results
  rw [show W2 m ρ c (Proc.devRef .tc main_arg1) = m ((c : Thread nD τ).loc main_arg1) from W2_arg1 m ρ c]
  rfl

/-- The update region's output. -/
theorem W4_v6 (c : Dev nD) : W4 m ρ c main_v6
    = scaled (m ((c : Thread nD τ).loc main_arg0)) (colAcc (V1 m ρ) c 19 (by decide)) (degCol (m ((c : Thread nD τ).loc main_arg1))) := by
  refine (W4_arr m ρ c 3).trans ((arrAt1_out (V3 m ρ) c).trans ?_)
  rw [show V3 m ρ c main_arg0 = m ((c : Thread nD τ).loc main_arg0) from W3_arg0 m ρ c,
    show V3 m ρ c main_v0 = colAcc (V1 m ρ) c 19 (by decide) from W3_v0 m ρ c,
    show V3 m ρ c main_v5 = degCol (m ((c : Thread nD τ).loc main_arg1)) from W3_v5 m ρ c]

/-- THE RESULT at the program's end. -/
theorem W5_v7 (c : Dev nD) : W5 m ρ c main_v7
    = Host.scatter scatter_S500000x128_S0_S500000x128_01_n_n_0 (fun _ b => b) (m ((c : Thread nD τ).loc main_arg0)) (emptyVec S0 hz_S0 : (⟨S0, .i32⟩ : BufTy).Contents (Elt F))
        (scaled (m ((c : Thread nD τ).loc main_arg0)) (colAcc (V1 m ρ) c 19 (by decide)) (degCol (m ((c : Thread nD τ).loc main_arg1)))) := by
  show StableHlo.after hostOps2 (W4 m ρ c) (Proc.devRef .tc main_v7) = _
  after_results
  rw [show W4 m ρ c (Proc.devRef .tc main_arg0) = m ((c : Thread nD τ).loc main_arg0) from W4_arg0 m ρ c,
    show W4 m ρ c (Proc.devRef .tc main_c) = emptyVec S0 hz_S0 from W4_c m ρ c,
    show W4 m ρ c (Proc.devRef .tc main_v6) = _ from W4_v6 m ρ c]
  rfl

/-! ## The run, read at the arguments and the result -/

/-- Every weakly fair execution terminates, nothing faulting, with the result at `W5_v7`'s term and the arguments as launched. -/
theorem run_value : θ_run defs (onTc (τ := τ) (main (F := F))) ⟨m, fun _ => 0, ρ⟩ (fun r => ∀ c : Dev nD,
      r.2.mem ((c.tc : Thread nD τ).loc main_v7)
        = Host.scatter scatter_S500000x128_S0_S500000x128_01_n_n_0 (fun _ b => b) (m ((c : Thread nD τ).loc main_arg0)) (emptyVec S0 hz_S0 : (⟨S0, .i32⟩ : BufTy).Contents (Elt F))
            (scaled (m ((c : Thread nD τ).loc main_arg0)) (colAcc (V1 m ρ) c 19 (by decide)) (degCol (m ((c : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_v7 (by decide))).trans (W5_v7 m ρ c),
     (h c _ (mem_uc main_arg0 (by decide))).trans (W5_arg0 m ρ c),
     (h c _ (mem_uc main_arg1 (by decide))).trans (W5_arg1 m ρ c)⟩) (run_all m ρ)

/-- The frame claim: the run, with only the arguments read. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run_value m ρ)

end Cert.KernelIdeal.Hand

end
-- ==== Proof.RefValue.lean ====
/-
  The reference program's result, read entry by entry off its run: before the final write into a copy of the table,
  entry (r, j) is (x[r,j] + T[j]) · (1 − T[j] / (1 + D[r])) with T the column sums of the table and D the degree histogram.
-/
import proofs.«160569_j84937273245885_1_alg».proof.Defs
import proofs.«160569_j84937273245885_1_alg».proof.Proof.RefRun
import proofs.«160569_j84937273245885_1_alg».proof.Proof.RefRead
import Idealize.ShloMosaic.Lib.ValueIdx

noncomputable section

namespace Cert.ReferenceIdeal.RefValue

open Cert.ReferenceIdeal Cert.ReferenceIdeal.Gen Cert.ReferenceIdeal.ReadP
open Idealize.ShloMosaic Idealize.ShloMosaic.TcCoe Idealize.SL.Sem

variable {F : FTy → Type} [FloatOps F]

/-- The entry of the reference's product before the final write, from the table, the column sums and the degrees. -/
theorem updated_apply (x0 : (⟨S500000x128, .f32⟩ : BufTy).Contents (Elt F)) (x1 : (⟨S8000000, .i32⟩ : BufTy).Contents (Elt F)) (i : S500000x128.Idx) :
    val_main_v17 (F := F) x0 x1 i
      = FloatOps.mulf (FloatOps.addf (x0 i) (val_main_v0 (F := F) x0 (ValueIdx.ix1 (i 1))))
          (FloatOps.subf (FloatOps.ofBits .f32 0x3F800000#32)
            (FloatOps.hostDivf (val_main_v0 (F := F) x0 (ValueIdx.ix1 (i 1)))
              (FloatOps.addf (FloatOps.ofBits .f32 0x3F800000#32) (val_main_v7 (F := F) x1 (ValueIdx.ix1 (i 0)))))) := by
  -- the column-sum row is broadcast along the rows: both of its copies are read at column `i 1`
  have hcolA : idx_main_v1 (idx_main_v2 i) = ValueIdx.ix1 (i 1) :=
    funext fun a => Fin.ext (by match a with | ⟨0, _⟩ => rfl)
  have hcolB : idx_main_v11 (idx_main_v12 i) = ValueIdx.ix1 (i 1) :=
    funext fun a => Fin.ext (by match a with | ⟨0, _⟩ => rfl)
  -- the degree column is broadcast along the columns: it is read at row `i 0`
  have hrow : idx_main_v10 (idx_main_v13 i) = ValueIdx.ix1 (i 0) :=
    funext fun a => Fin.ext (by match a with | ⟨0, _⟩ => rfl)
  -- the product (x + T) · (1 − T / (1 + D)), read factor by factor
  rw [val_main_v17_apply, val_main_v3_apply, val_main_v16_apply, val_main_v14_apply,
    val_main_v15_apply, val_main_cst_3_apply,
    val_main_v2_apply, val_main_v1_apply, hcolA,
    val_main_v12_apply, val_main_v11_apply, hcolB,
    val_main_v13_apply, val_main_v10_apply, val_main_v9_apply, val_main_v8_apply, val_main_cst_2_apply, hrow]
  -- what is left differs only in how the extent of a coordinate is written (128 for the table's second extent, 500000 for its first)
  rfl

/-- At the extended reals the reference's column sum is the plain sum of the column. -/
theorem total_apply (x0 : (⟨S500000x128, .f32⟩ : BufTy).Contents (Elt Ideal)) (j : Fin 128) :
    val_main_v0 (F := Ideal) x0 (ValueIdx.ix1 j) = ∑ k : Fin 500000, (x0 : S500000x128.Idx → EReal) (ValueIdx.ix2 k j) := by
  -- the sum starts from the zero word, which is the extended real 0
  rw [val_main_v0_apply, val_main_cst_apply, Ideal.ofBits_def, Ideal.ofBits_zero_f32, zero_add]
  -- the k-th summand of column j is the table at row k, column j
  refine Finset.sum_congr rfl fun k _ => congrArg x0 ?_
  exact funext fun a => Fin.ext (by match a with | ⟨0, _⟩ => rfl | ⟨1, _⟩ => rfl)

/-- The reference's run with its result named as the stage `val_main_v18`. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v18) = val_main_v18 (F := F) (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (val_main_v18_eq _ _), (h c).2⟩) (Cert.ReferenceIdeal.ValueP.run (F := F) m ρ)

end Cert.ReferenceIdeal.RefValue

end
-- ==== Proof.SumValue.lean ====
/-
  At the extended reals the accumulator after the last point holds, in column j, the sum of the whole column j of the
  embedding table: twenty block sums of 25000 rows each, added in order onto zero, are the sum over all 500000 rows
  (addition of extended reals is commutative and associative, and zero is neutral).
-/
import proofs.«160569_j84937273245885_1_alg».proof.Proof.SumRegion
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Mathlib.Algebra.BigOperators.Fin
import Mathlib.Logic.Equiv.Fin.Basic

set_option maxRecDepth 16384

noncomputable section

namespace Cert.KernelIdeal.Hand

open Cert.KernelIdeal Cert.KernelIdeal.Gen
open Idealize.ShloMosaic Idealize.ShloMosaic.TcCoe Idealize.SL.Sem

/-! ## Sums taken block by block, and a running sum -/

/-- Row `r` of block `b`, of `m` blocks of `n` rows each, is a row of the whole. -/
theorem row_of_block_lt {m n N : ℕ} (hN : m * n = N) (b : Fin m) (r : Fin n) : n * b.val + r.val < N := by
  subst hN
  calc n * b.val + r.val < n * b.val + n := Nat.add_lt_add_left r.isLt _
    _ = n * (b.val + 1) := (Nat.mul_succ n b.val).symm
    _ ≤ n * m := Nat.mul_le_mul_left n b.isLt
    _ = m * n := Nat.mul_comm n m

/-- A sum over `m · n` rows taken block by block: `m` blocks of `n` consecutive rows each. -/
theorem sum_by_blocks {M : Type*} [AddCommMonoid M] {m n N : ℕ} (hN : m * n = N) (f : Fin N → M) :
    ∑ b : Fin m, ∑ r : Fin n, f ⟨n * b.val + r.val, row_of_block_lt hN b r⟩ = ∑ k : Fin N, f k := by
  subst hN
  rw [← Equiv.sum_comp finProdFinEquiv f, Fintype.sum_prod_type]
  refine Finset.sum_congr rfl fun b _ => Finset.sum_congr rfl fun r _ => congrArg f (Fin.ext ?_)
  exact Nat.add_comm _ _

/-- A running sum started at zero, each step adding zero plus the next term, is the sum of the terms so far. -/
theorem running_sum {M : Type*} [AddCommMonoid M] (N : ℕ) (s : ℕ → M) (a : (n : ℕ) → n < N → M)
    (h0 : ∀ h, a 0 h = 0 + (0 + s 0))
    (hs : ∀ n (h : n + 1 < N), a (n + 1) h = a n (Nat.lt_of_succ_lt h) + (0 + s (n + 1))) :
    ∀ n (h : n < N), a n h = ∑ i ∈ Finset.range (n + 1), s i
  | 0, h => by rw [h0, zero_add, zero_add, Finset.sum_range_one]
  | n + 1, h => by rw [hs, running_sum N s a h0 hs n, zero_add, Finset.sum_range_succ _ (n + 1)]

/-! ## What one point adds -/

/-- The zero block the first point starts from reads zero in every column. -/
theorem zeroBlock_apply (j : Fin 128) : (k0_pay1 (F := Ideal)) (ValueIdx.ix2 0 j) = 0 := by
  unfold k0_pay1
  rw [shapeCast_self, ValueIdx.broadcast_apply]
  exact Ideal.ofBits_zero_f32

/-- The source index a sum over the rows reads: row `r` of column `j`. -/
theorem rowOf_column (j : Fin 128) (r : Fin 25000) :
    Facts₀.reduces_S25000x128_S128.lift (ValueIdx.ix1 j) r = ValueIdx.ix2 r j := by
  funext a
  match a with
  | ⟨0, _⟩ => rfl
  | ⟨1, _⟩ => rfl

/-- The sum over the rows of a block of 25000 rows, read in column `j`: the sum of the block's column `j`. -/
theorem rowSum_apply (x : FVec Ideal S25000x128 .f32) (hφ : FKind.Formats .f32) (hacc : (0x00000000#32 : BitVec 32) = 0x00000000#32)
    (j : Fin 128) :
    multiReduction (F := Ideal) .add [0] S128 x 0x00000000#32 Facts₀.reduces_S25000x128_S128 hφ hacc (ValueIdx.ix1 j)
      = ∑ r : Fin 25000, x (ValueIdx.ix2 r j) :=
  (Ideal.multiReduction_add_single x 0x00000000#32 Facts₀.reduces_S25000x128_S128 hφ hacc (ValueIdx.ix1 j)).trans
    (Finset.sum_congr rfl fun r _ => congrArg x (rowOf_column j r))

/-- One point's new accumulator reads, in column `j`, the old one's column `j` plus the sum of column `j` of the point's
    25000 rows. -/
theorem blockAdd_apply (acc : Vec Ideal S1x128 .f32) (x : Vec Ideal S25000x128 .f32) (j : Fin 128) :
    k0_pay2 acc x (ValueIdx.ix2 0 j) = acc (ValueIdx.ix2 0 j) + (0 + ∑ r : Fin 25000, x (ValueIdx.ix2 r j)) := by
  unfold k0_pay2
  rw [shapeCast_self, ValueIdx.addf_apply, ValueIdx.shapeCast_a_1a_apply, zero_add]
  exact congrArg (acc (ValueIdx.ix2 0 j) + ·) (rowSum_apply x _ _ j)

variable (V : (c : Dev nD) → (b : Ref sig .tc) → Buf (Elt Ideal) ((c : Thread nD τ).loc b))

/-- The embedding table as the region finds it, at its literal type. -/
abbrev tableAt (c : Dev nD) : (⟨S500000x128, .f32⟩ : BufTy).Contents (Elt Ideal) := V c main_arg0

/-! ## The rows a point sums are rows of the table -/

/-- The table's window over the grid: point `t`'s block is row block `t`, column block 0. -/
theorem tableWindow_index : ∀ t : Fin cfg0.N, win0_0.index t (0 : Fin 2) = t.val ∧ win0_0.index t (1 : Fin 2) = 0 :=
  (by decide +kernel : ∀ t : Fin grid0.N, _)

/-- Row `r` of the block point `t` sums is row `25000 · t + r` of the table. -/
theorem rowsAt_apply (c : Dev nD) (t : Fin cfg0.N) (r : Fin 25000) (j : Fin 128) (k : Fin 500000)
    (hk : k.val = 25000 * t.val + r.val) :
    rowsAt V c t (ValueIdx.ix2 r j) = tableAt V c (ValueIdx.ix2 k j) := by
  obtain ⟨h0, h1⟩ := tableWindow_index t
  unfold rowsAt iblk0
  rw [View.read_apply]
  show V c main_arg0 _ = V c main_arg0 _
  congr 1
  funext a
  apply Fin.ext
  match a with
  | ⟨0, _⟩ => show win0_0.index t 0 * 25000 + 1 * r.val = k.val; rw [h0, hk]; omega
  | ⟨1, _⟩ => show win0_0.index t 1 * 128 + 1 * j.val = j.val; rw [h1]; omega

/-! ## The accumulator over the points -/

/-- The sum of column `j` over the 25000 rows of block `i` of the table (zero past the twentieth block). -/
def blockSum (c : Dev nD) (j : Fin 128) (i : ℕ) : Elt Ideal .f32 :=
  if h : i < 20 then ∑ r : Fin 25000,
    tableAt V c (ValueIdx.ix2 ⟨25000 * i + r.val, row_of_block_lt (m := 20) (n := 25000) (N := 500000) rfl ⟨i, h⟩ r⟩ j)
  else 0

/-- Column `j` of the rows point `i` sums adds up to block `i`'s column sum. -/
theorem rowsAt_colSum (c : Dev nD) (j : Fin 128) (i : ℕ) (h : i < cfg0.N) :
    ∑ r : Fin 25000, rowsAt V c ⟨i, h⟩ (ValueIdx.ix2 r j) = blockSum V c j i := by
  have h20 : i < 20 := by have hN : cfg0.N = 20 := N_0; omega
  unfold blockSum
  rw [dif_pos h20]
  exact Finset.sum_congr rfl fun r _ => rowsAt_apply V c ⟨i, h⟩ r j _ rfl

/-- Column `j` of the accumulator after the first point: zero plus the first block's column sum. -/
theorem colAcc_column_first (c : Dev nD) (j : Fin 128) (h : 0 < cfg0.N) :
    colAcc V c 0 h (ValueIdx.ix2 0 j) = 0 + (0 + blockSum V c j 0) := by
  rw [colAcc_zero, blockAdd_apply, zeroBlock_apply, rowsAt_colSum]

/-- Column `j` of the accumulator after a later point: what the point before left plus this block's column sum. -/
theorem colAcc_column_next (c : Dev nD) (j : Fin 128) (n : ℕ) (h : n + 1 < cfg0.N) :
    colAcc V c (n + 1) h (ValueIdx.ix2 0 j)
      = colAcc V c n (Nat.lt_of_succ_lt h) (ValueIdx.ix2 0 j) + (0 + blockSum V c j (n + 1)) := by
  rw [colAcc_succ, blockAdd_apply, rowsAt_colSum]

/-- Column j of the accumulator after the last point is the sum of column j of the table as the region found it. -/
theorem colAcc_total (c : Dev nD) (j : Fin 128) :
    colAcc (F := Ideal) V c 19 (by decide) (ValueIdx.ix2 0 j)
      = ∑ k : Fin 500000, tableAt V c (ValueIdx.ix2 k j) := by
  refine (running_sum cfg0.N (blockSum V c j) (fun n h => colAcc V c n h (ValueIdx.ix2 0 j))
    (colAcc_column_first V c j) (colAcc_column_next V c j) 19 (by decide)).trans ?_
  show ∑ i ∈ Finset.range 20, blockSum V c j i = _
  rw [Finset.sum_range, ← sum_by_blocks (m := 20) (n := 25000) rfl fun k => tableAt V c (ValueIdx.ix2 k j)]
  exact Finset.sum_congr rfl fun b _ => dif_pos b.isLt

end Cert.KernelIdeal.Hand

end
-- ==== Proof.Bridge.lean ====
/-
  The two programs compute one function. Entry (r, j) of what both write over the table's rows is
  (x[r,j] + T[j]) · (1 − T[j] / (1 + D[r])): T[j] the sum of column j — the kernel's twenty block sums added in order
  onto zero, the reference's one sum from zero: equal because addition of extended reals is commutative and associative
  with zero neutral —, D[r] the number of adjacency rows equal to r, which both programs compute by the same histogram;
  the kernel's quotient and the reference's are the same division of extended reals.
-/
import proofs.«160569_j84937273245885_1_alg».proof.Proof.KernelValue
import proofs.«160569_j84937273245885_1_alg».proof.Proof.SumValue
import proofs.«160569_j84937273245885_1_alg».proof.Proof.RefValue
import Idealize.ShloMosaic.PureOps.Ideal
import Idealize.ShloMosaic.Lib.Pipeline.Value
import Idealize.ShloMosaic.Lib.ValueIdx

set_option maxRecDepth 16384

noncomputable section

namespace Cert.Proof.Bridge

open Idealize.ShloMosaic Idealize.ShloMosaic.TcCoe Idealize.SL.Sem
open Cert.KernelIdeal.Hand

/-- The degree column's entry (r, 0) is the histogram's entry r: the column is the histogram with a unit axis added. -/
theorem degCol_apply (x1 : (⟨Cert.KernelIdeal.S8000000, .i32⟩ : BufTy).Contents (Elt Ideal)) (r : Fin 500000) :
    degCol (F := Ideal) x1 (ValueIdx.ix2 r 0) = Cert.ReferenceIdeal.ReadP.val_main_v7 (F := Ideal) x1 (ValueIdx.ix1 r) := by
  unfold degCol
  rw [shapeCast_apply _ _ (ValueIdx.ix2 r 0) (ValueIdx.ix1 r) (by
    rw [Shape.rowMajor_val_one, Shape.rowMajor_val_two]; simp)]
  rfl

variable (m : (ℓ : Loc Cert.KernelIdeal.nD Cert.KernelIdeal.τ Cert.KernelIdeal.sig) → Buf (Elt Ideal) ℓ) (ρ : Dev Cert.KernelIdeal.nD → PrngReg)

/-- Column j of what the first region leaves is the reference's sum of column j. -/
theorem total_eq (c : Dev Cert.KernelIdeal.nD) (j : Fin 128) :
    colAcc (F := Ideal) (V1 m ρ) c 19 (by decide) (ValueIdx.ix2 0 j)
      = Cert.ReferenceIdeal.ReadP.val_main_v0 (F := Ideal) (m ((c : Thread Cert.KernelIdeal.nD Cert.KernelIdeal.τ).loc Cert.KernelIdeal.main_arg0)) (ValueIdx.ix1 j) := by
  rw [colAcc_total (V1 m ρ) c j, Cert.ReferenceIdeal.RefValue.total_apply]
  refine Finset.sum_congr rfl fun k _ => ?_
  show (V1 m ρ c Cert.KernelIdeal.main_arg0) (ValueIdx.ix2 k j) = _
  rw [show V1 m ρ c Cert.KernelIdeal.main_arg0 = m ((c : Thread Cert.KernelIdeal.nD Cert.KernelIdeal.τ).loc Cert.KernelIdeal.main_arg0) from W1_arg0 m ρ c]

/-- The update region's output is the reference's product before its final write, entry by entry. -/
theorem scaled_eq (c : Dev Cert.KernelIdeal.nD) :
    scaled (F := Ideal) (m ((c : Thread Cert.KernelIdeal.nD Cert.KernelIdeal.τ).loc Cert.KernelIdeal.main_arg0))
        (colAcc (V1 m ρ) c 19 (by decide)) (degCol (m ((c : Thread Cert.KernelIdeal.nD Cert.KernelIdeal.τ).loc Cert.KernelIdeal.main_arg1)))
      = Cert.ReferenceIdeal.ReadP.val_main_v17 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) := by
  funext i
  rw [Cert.ReferenceIdeal.RefValue.updated_apply]
  unfold scaled
  rw [total_eq m ρ c (i 1), degCol_apply _ (i 0)]
  rfl

/-- THE RESULTS AGREE: what the kernel's program leaves in its result buffer is the reference's result stage of the same arguments. -/
theorem result_eq (c : Dev Cert.KernelIdeal.nD) :
    Host.scatter Cert.KernelIdeal.scatter_S500000x128_S0_S500000x128_01_n_n_0 (fun _ b => b)
        (m ((c : Thread Cert.KernelIdeal.nD Cert.KernelIdeal.τ).loc Cert.KernelIdeal.main_arg0))
        (emptyVec Cert.KernelIdeal.S0 Cert.KernelIdeal.Facts₀.hz_S0 : (⟨Cert.KernelIdeal.S0, .i32⟩ : BufTy).Contents (Elt Ideal))
        (scaled (m ((c : Thread Cert.KernelIdeal.nD Cert.KernelIdeal.τ).loc Cert.KernelIdeal.main_arg0))
          (colAcc (V1 m ρ) c 19 (by decide)) (degCol (m ((c : Thread Cert.KernelIdeal.nD Cert.KernelIdeal.τ).loc Cert.KernelIdeal.main_arg1))))
      = Cert.ReferenceIdeal.ReadP.val_main_v18 (F := Ideal) (m ((c : Thread Cert.KernelIdeal.nD Cert.KernelIdeal.τ).loc Cert.KernelIdeal.main_arg0))
          (m ((c : Thread Cert.KernelIdeal.nD Cert.KernelIdeal.τ).loc Cert.KernelIdeal.main_arg1)) := by
  rw [scaled_eq m ρ c]
  rfl

end Cert.Proof.Bridge

end
-- ==== Proof.lean ====
/-
  The certificate of the degree-normalised embedding update: the kernel's program (the column sums of the table accumulated
  over twenty blocks, a degree histogram on the host, the update (x + T)·(1 − T/(1 + D)) over fifty blocks, the rows written
  into a copy of the table) against the reference's (one column sum, the same histogram, the same update as whole-array
  operations). The three programs run to their end with the arguments unchanged; the idealized kernel is the kernel's own
  text read at the extended reals; and at the extended reals the two results are equal entry by entry, because a sum of
  extended reals does not depend on the order or grouping of its terms.
-/
import proofs.«160569_j84937273245885_1_alg».proof.Defs
import proofs.«160569_j84937273245885_1_alg».proof.Proof.Gen.Kernel
import proofs.«160569_j84937273245885_1_alg».proof.Proof.Gen.KernelIdeal
import proofs.«160569_j84937273245885_1_alg».proof.Proof.Gen.ReferenceIdeal
import proofs.«160569_j84937273245885_1_alg».proof.Proof.Gen.Pre_finite_inputs
import proofs.«160569_j84937273245885_1_alg».proof.Proof.BitsKernelValue
import proofs.«160569_j84937273245885_1_alg».proof.Proof.KernelValue
import proofs.«160569_j84937273245885_1_alg».proof.Proof.RefValue
import proofs.«160569_j84937273245885_1_alg».proof.Proof.Bridge
import Idealize.ShloMosaic.Adequacy
import Idealize.ShloMosaic.Init

noncomputable section

namespace Cert.Proof

open Idealize.ShloMosaic Idealize.ShloMosaic.TcCoe Idealize.SL.Sem

/-- The kernel's program, word by word: it runs to its end and leaves its arguments as launched. -/
theorem frame_kernel : Cert.frame_Kernel := fun m ρ _ => Cert.Kernel.Hand.frame m ρ

/-- The same program read at the extended reals. -/
theorem frame_kernelIdeal : Cert.frame_KernelIdeal := fun m ρ _ => Cert.KernelIdeal.Hand.frame m ρ

/-- The reference: its run, with the result dropped. -/
theorem frame_reference : Cert.frame_ReferenceIdeal := fun m ρ _ =>
  (θ_run Cert.ReferenceIdeal.defs _ _).mono (fun _ h c => (h c).2) (Cert.ReferenceIdeal.RefValue.run_val (F := Ideal) m ρ)

/-- From memories agreeing on the table and the adjacency rows both programs end with the same result: the reference's
    result stage of those arguments — the kernel's by `Bridge.result_eq`, the reference's by its own run. -/
theorem algebraic : Cert.algebraic_KernelIdeal_ReferenceIdeal := by
  intro m ρ m' ρ' _ hagree
  refine ⟨fun c => Cert.ReferenceIdeal.ReadP.val_main_v18 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.Proof.Bridge.result_eq m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.RefValue.run_val (F := Ideal) m' ρ')
    rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
